-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S128x64 : Shape := ⟨2, ![128, 64]⟩
abbrev S128x256 : Shape := ⟨2, ![128, 256]⟩
abbrev S128x128 : Shape := ⟨2, ![128, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x64 : S_.BroadcastsInDim S128x64 (![] : Fin 0 → Fin S128x64.rank)
  reducesTo_S128x64_S_d0_1 : S128x64.ReducesTo [0, 1] S_
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x256 .f32) (main_arg5 : FVec F S128x128 .f32) (main_arg6 : FVec F S128x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : FVec F S50000x128 .f32) (main_arg2 : FVec F S800000x64 .f32) (main_arg3 : FVec F S128x64 .f32) (main_arg4 : FVec F S128x256 .f32) (main_arg5 : FVec F S128x128 .f32) (main_arg6 : FVec F S128x128 .f32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000x64 .f32 := Host.absf main_arg2
  let main_cst_2 : FVec F S_ .f32 := constant S_ .f32 0x7F800000#32
  let main_v10 : FVec F S800000x64 .f32 := broadcastInDim S800000x64 ![] bcast_S_S800000x64 main_cst_2
  let main_v11 : IVec S800000x64 1 := cmpf .olt main_v9 main_v10
  let main_c_3 : IVec S_ 1 := constantI S_ 1 1#1
  let main_v12 : IVec S_ 1 := (fun x v => Host.reduce IntOp.andi x v reducesTo_S800000x64_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S50000x128 : Shape := ⟨2, ![50000, 128]⟩
abbrev S800000x64 : Shape := ⟨2, ![800000, 64]⟩
abbrev S128x64 : Shape := ⟨2, ![128, 64]⟩
abbrev S128x256 : Shape := ⟨2, ![128, 256]⟩
abbrev S128x128 : Shape := ⟨2, ![128, 128]⟩
abbrev S800000 : Shape := ⟨1, ![800000]⟩
abbrev S64x128 : Shape := ⟨2, ![64, 128]⟩
abbrev S800000x128 : Shape := ⟨2, ![800000, 128]⟩
abbrev S8000x64 : Shape := ⟨2, ![8000, 64]⟩
abbrev S8000x128 : Shape := ⟨2, ![8000, 128]⟩
abbrev S8000 : Shape := ⟨1, ![8000]⟩
abbrev S8000x1 : Shape := ⟨2, ![8000, 1]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S2000x128 : Shape := ⟨2, ![2000, 128]⟩
abbrev S2000x1 : Shape := ⟨2, ![2000, 1]⟩
abbrev S2000 : Shape := ⟨1, ![2000]⟩

abbrev nBuf : Space → Nat
  | .hbm => 42
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000x64, .f32⟩
  | .hbm, ⟨3, _⟩ => ⟨S128x64, .f32⟩
  | .hbm, ⟨4, _⟩ => ⟨S128x256, .f32⟩
  | .hbm, ⟨5, _⟩ => ⟨S128x128, .f32⟩
  | .hbm, ⟨6, _⟩ => ⟨S128x128, .f32⟩
  | .hbm, ⟨7, _⟩ => ⟨S800000, .i32⟩
  | .hbm, ⟨8, _⟩ => ⟨S800000, .i32⟩
  | .hbm, ⟨9, _⟩ => ⟨S64x128, .f32⟩
  | .hbm, ⟨10, _⟩ => ⟨S800000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S50000x1, .f32⟩
  | .hbm, ⟨41, _⟩ => ⟨S50000x128, .f32⟩
  | .local _ .vmem, ⟨0, _⟩ => ⟨S8000x64, .f32⟩
  | .local _ .vmem, ⟨1, _⟩ => ⟨S8000x64, .f32⟩
  | .local _ .vmem, ⟨2, _⟩ => ⟨S64x128, .f32⟩
  | .local _ .vmem, ⟨3, _⟩ => ⟨S8000x128, .f32⟩
  | .local _ .vmem, ⟨4, _⟩ => ⟨S8000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  transposes_S128x64_S64x128_1_0 : S128x64.Transposes [1, 0] S64x128
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reduces_S8000x128_S8000 : S8000x128.Reduces [1] S8000
  shapeCasts_S8000_S8000x1 : S8000.ShapeCasts S8000x1
  broadcasts_S8000x1_S8000x128 : S8000x1.Broadcasts S8000x128
  inb_S8000x128_S8000x128_0_0 : ∀ a, (![0, 0] : Fin 2 → Nat) a + S8000x128.size a ≤ S8000x128.size a
  h_S8000x128 : 0 < S8000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  reduces_S2000x128_S2000 : S2000x128.Reduces [1] S2000
  shapeCasts_S2000_S2000x1 : S2000.ShapeCasts S2000x1
  dot_S8000x64_S64x128_S8000x128_1_0_0_1_n_n_wf : DotDims.WF S8000x64 S64x128 S8000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S800000x128.size a
  hwx0_2 : ∀ i : grid0.Coords, EltTy.bits .f32 = 32 ∨ (Rect.block (s := S800000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)

variable [Facts₀]

def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg2) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S128x64 : Shape := ⟨2, ![128, 64]⟩
abbrev S128x256 : Shape := ⟨2, ![128, 256]⟩
abbrev S128x128 : Shape := ⟨2, ![128, 128]⟩
abbrev S800000 : Shape := ⟨1, ![800000]⟩
abbrev S64x128 : Shape := ⟨2, ![64, 128]⟩
abbrev S800000x128 : Shape := ⟨2, ![800000, 128]⟩
abbrev S_ : Shape := ⟨0, ![]⟩
abbrev S800000x1 : Shape := ⟨2, ![800000, 1]⟩
abbrev S800000x256 : Shape := ⟨2, ![800000, 256]⟩
abbrev S50000x256 : Shape := ⟨2, ![50000, 256]⟩
abbrev S50000 : Shape := ⟨1, ![50000]⟩
abbrev S50000x1 : Shape := ⟨2, ![50000, 1]⟩
abbrev S256x128 : Shape := ⟨2, ![256, 128]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000x64, .f32⟩
  | .hbm, ⟨3, _⟩ => ⟨S128x64, .f32⟩
  | .hbm, ⟨4, _⟩ => ⟨S128x256, .f32⟩
  | .hbm, ⟨5, _⟩ => ⟨S128x128, .f32⟩
  | .hbm, ⟨6, _⟩ => ⟨S128x128, .f32⟩
  | .hbm, ⟨7, _⟩ => ⟨S800000, .i32⟩
  | .hbm, ⟨8, _⟩ => ⟨S800000, .i32⟩
  | .hbm, ⟨9, _⟩ => ⟨S64x128, .f32⟩
  | .hbm, ⟨10, _⟩ => ⟨S800000x128, .f32⟩
  | .hbm, ⟨11, _⟩ => ⟨S_, .f32⟩
  | .hbm, ⟨12, _⟩ => ⟨S800000x128, .f32⟩
  | .hbm, ⟨13, _⟩ => ⟨S800000x128, .f32⟩
  | .hbm, ⟨14, _⟩ => ⟨S800000x128, .f32⟩
  | .hbm, ⟨15, _⟩ => ⟨S_, .f32⟩
  | .hbm, ⟨16, _⟩ => ⟨S800000, .f32⟩
  | .hbm, ⟨17, _⟩ => ⟨S800000x1, .f32⟩
  | .hbm, ⟨18, _⟩ => ⟨S800000x1, .f32⟩
  | .hbm, ⟨19, _⟩ => ⟨S_, .f32⟩
  | .hbm, ⟨20, _⟩ => ⟨S800000x1, .f32⟩
  | .hbm, ⟨21, _⟩ => ⟨S800000x1, .i1⟩
  | .hbm, ⟨22, _⟩ => ⟨S_, .f32⟩
  | .hbm, ⟨23, _⟩ => ⟨S800000x1, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x256, .f32⟩
  | .hbm, ⟨37, _⟩ => ⟨S_, .f32⟩
  | .hbm, ⟨38, _⟩ => ⟨S50000x256, .f32⟩
  | .hbm, ⟨39, _⟩ => ⟨S800000x1, .i32⟩
  | .hbm, ⟨40, _⟩ => ⟨S50000x256, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x256, .f32⟩
  | .hbm, ⟨52, _⟩ => ⟨S50000x256, .f32⟩
  | .hbm, ⟨53, _⟩ => ⟨S256x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S128x128, .f32⟩
  | .hbm, ⟨59, _⟩ => ⟨S50000x128, .f32⟩
  | .hbm, ⟨60, _⟩ => ⟨S128x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000, .f32⟩
  | .hbm, ⟨69, _⟩ => ⟨S50000x1, .f32⟩
  | .hbm, ⟨70, _⟩ => ⟨S50000x1, .f32⟩
  | .hbm, ⟨71, _⟩ => ⟨S_, .f32⟩
  | .hbm, ⟨72, _⟩ => ⟨S50000x1, .f32⟩
  | .hbm, ⟨73, _⟩ => ⟨S50000x1, .i1⟩
  | .hbm, ⟨74, _⟩ => ⟨S_, .f32⟩
  | .hbm, ⟨75, _⟩ => ⟨S50000x1, .f32⟩
  | .hbm, ⟨76, _⟩ => ⟨S50000x1, .f32⟩
  | .hbm, ⟨77, _⟩ => ⟨S50000x128, .f32⟩
  | .hbm, ⟨78, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call2_cst : Ref sig .tc := ⟨.hbm, 55, rfl⟩
abbrev main_call2_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call3_cst : Ref sig .tc := ⟨.hbm, 63, rfl⟩
abbrev main_call3_v0 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]

class Facts₀ : Prop where
  transposes_S128x64_S64x128_1_0 : S128x64.Transposes [1, 0] S64x128
  bcast_S_S800000x128 : S_.BroadcastsInDim S800000x128 (![] : Fin 0 → Fin S800000x128.rank)
  reducesTo_S800000x128_S800000_d1 : S800000x128.ReducesTo [1] S800000
  h_S_ : 0 < S_.numel
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S800000 : S_.BroadcastsInDim S800000 (![] : Fin 0 → Fin S800000.rank)
  concatenates_S800000x128_S800000x128_S800000x256_d1 : Shape.Concatenates [S800000x128, S800000x128] S800000x256 1
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S128x256_S256x128_1_0 : S128x256.Transposes [1, 0] S256x128
  bcast_S_S50000x128 : S_.BroadcastsInDim S50000x128 (![] : Fin 0 → Fin S50000x128.rank)
  transposes_S128x128_S128x128_1_0 : S128x128.Transposes [1, 0] S128x128
  reducesTo_S50000x128_S50000_d1 : S50000x128.ReducesTo [1] S50000
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S800000x64_S64x128_S800000x128_1_0_0_1_n_n_wf : DotDims.WF S800000x64 S64x128 S800000x128 [1] [0] [0] [1] [] []
  gather_S50000x128_S800000x1_S800000x128_1_0_n_n_0_1_1128_wf : GatherDims.WF S50000x128 S800000x1 S800000x128 [1] [0] [] [0] [] 1 ![1, 128]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  What one edge row and one node row of the layer compute, over the extended reals.

  An edge row x ∈ ℝ^64 is sent to l2row (relu (x · W)), where relu is the maximum with 0 and l2row divides a
  row by its Euclidean norm, a norm equal to 0 being replaced by 1. A node row is sent to
  l2row (relu (h · Ws + hn · Wn)), where hn is the mean-aggregated neighbourhood pushed through the remap
  weights and relu. The kernel computes hn as relu ((a₁ · W₁ + a₂ · W₂) / max d 1) from the two halves a₁, a₂
  of the aggregated message; the reference computes relu (((a₁ ++ a₂) / max d 1) · W) with W the two blocks
  W₁, W₂ stacked. Both are stated here row by row; the arrays below read them at each row of a whole array.
-/
import Idealize.ShloMosaic.PureOps.Ideal
import Idealize.ShloMosaic.Lib.ValueIdx

noncomputable section

namespace Cert.Spec

open Idealize.ShloMosaic Idealize.ShloMosaic.ValueIdx

/-- A norm equal to zero is replaced by one. -/
def nz (n : EReal) : EReal := Scalar.select (Ideal.cmp .oeq n 0) 1 n

/-- A row divided by its Euclidean norm (by one when the norm is zero). -/
def l2row {n : Nat} (y : Fin n → EReal) (j : Fin n) : EReal :=
  Ideal.div (y j) (nz (Ideal.sqrt (∑ k, y k * y k)))

/-- An edge row: l2row (relu (x · W)). -/
def edgeRow (x : Fin 64 → EReal) (w : Fin 64 → Fin 128 → EReal) : Fin 128 → EReal :=
  l2row fun j => max (∑ k, x k * w k j) 0

/-- The remapped neighbourhood as the kernel computes it: relu ((a₁ · W₁ + a₂ · W₂) / max d 1). -/
def hnK (a1 a2 : Fin 128 → EReal) (d : EReal) (w1 w2 : Fin 128 → Fin 128 → EReal) (k : Fin 128) : EReal :=
  max (Ideal.div (∑ i, a1 i * w1 i k + ∑ i, a2 i * w2 i k) (max d 1)) 0

/-- The remapped neighbourhood as the reference computes it: relu ((agg / max d 1) · W). -/
def hnR (agg : Fin 256 → EReal) (d : EReal) (w : Fin 256 → Fin 128 → EReal) (k : Fin 128) : EReal :=
  max (∑ i, Ideal.div (agg i) (max d 1) * w i k) 0

/-- A node row: l2row (relu (h · Ws + hn · Wn)). -/
def outRow (h hn : Fin 128 → EReal) (ws wn : Fin 128 → Fin 128 → EReal) : Fin 128 → EReal :=
  l2row fun j => max (∑ k, h k * ws k j + ∑ k, hn k * wn k j) 0

/-- Row n of a matrix. -/
def row {N D : Nat} (A : (⟨2, ![N, D]⟩ : Shape).Idx → EReal) (n : Fin N) : Fin D → EReal := fun k => A (ix2 n k)

/-- A matrix as a function of its two coordinates. -/
def mat {K D : Nat} (W : (⟨2, ![K, D]⟩ : Shape).Idx → EReal) : Fin K → Fin D → EReal := fun k j => W (ix2 k j)

/-- The transposed matrix as a function of its two coordinates. -/
def matT {K D : Nat} (W : (⟨2, ![D, K]⟩ : Shape).Idx → EReal) : Fin K → Fin D → EReal := fun k j => W (ix2 j k)

/-- Every edge row of e_feats through edgeRow. -/
def edgeArr (X : (⟨2, ![800000, 64]⟩ : Shape).Idx → EReal) (W : (⟨2, ![64, 128]⟩ : Shape).Idx → EReal) :
    (⟨2, ![800000, 128]⟩ : Shape).Idx → EReal :=
  fun i => edgeRow (row X (i 0)) (mat W) (i 1)

/-- Every node row through outRow, the neighbourhood by the kernel's formula. -/
def fuseArr (A1 A2 : (⟨2, ![50000, 128]⟩ : Shape).Idx → EReal) (Dg : (⟨2, ![50000, 1]⟩ : Shape).Idx → EReal)
    (H : (⟨2, ![50000, 128]⟩ : Shape).Idx → EReal) (W1 W2 Ws Wn : (⟨2, ![128, 128]⟩ : Shape).Idx → EReal) :
    (⟨2, ![50000, 128]⟩ : Shape).Idx → EReal :=
  fun i => outRow (row H (i 0)) (hnK (row A1 (i 0)) (row A2 (i 0)) (Dg (ix2 (i 0) 0)) (mat W1) (mat W2)) (mat Ws) (mat Wn) (i 1)

end Cert.Spec

end
-- ==== Proof.KPay.lean ====
import proofs.«176896_j35304631173416_1_alg».proof.Proof.Gen.KernelIdeal.Skeleton
import proofs.«176896_j35304631173416_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.KPay

open Idealize.ShloMosaic Idealize.ShloMosaic.ValueIdx Cert.KernelIdeal Cert.KernelIdeal.Gen Cert.Spec

/-! ## The lane sum, the column cast and the lane broadcast at explicit coordinates -/

/-- The sum over the lanes of a row: the reduction over axis 1 read at row r. -/
theorem laneSum_apply {n : Nat} (v : FVec Ideal ⟨2, ![n, 128]⟩ .f32) (acc : BitVec 32)
    (h : Shape.Reduces ⟨2, ![n, 128]⟩ [1] ⟨1, ![n]⟩) (hφ : FKind.Formats .f32) (hacc : acc = FKind.add.neutral .f32 hφ)
    (r : Fin n) :
    multiReduction (F := Ideal) .add [1] ⟨1, ![n]⟩ v acc h hφ hacc (ix1 r) = ∑ k : Fin 128, v (ix2 r k) := by
  refine (Ideal.multiReduction_add_single v acc h hφ hacc (ix1 r)).trans ?_
  refine Finset.sum_congr rfl fun k _ => congrArg v (funext fun a => Fin.ext ?_)
  match a with
  | ⟨0, _⟩ => rfl
  | ⟨1, _⟩ => rfl

/-- A vector of n entries cast to a column of n rows reads entry r at (r, 0). -/
theorem col_apply {n : Nat} {α : Type} (v : (⟨1, ![n]⟩ : Shape).Idx → α)
    (h : (⟨1, ![n]⟩ : Shape).ShapeCasts ⟨2, ![n, 1]⟩) (r : Fin n) (z : Fin 1) :
    shapeCast ⟨2, ![n, 1]⟩ v h (ix2 r z) = v (ix1 r) := by
  refine shapeCast_apply v h (ix2 r z) (ix1 r) ?_
  rw [Shape.rowMajor_val_one, Shape.rowMajor_val_two]
  have := z.isLt
  show r.val = r.val * 1 + z.val
  omega

/-- A column broadcast along the lanes reads the column's entry of the same row. -/
theorem lanes_apply {n : Nat} {α : Type} (v : (⟨2, ![n, 1]⟩ : Shape).Idx → α)
    (h : (⟨2, ![n, 1]⟩ : Shape).Broadcasts ⟨2, ![n, 128]⟩) (r : Fin n) (q : Fin 128) :
    broadcastTo ⟨2, ![n, 128]⟩ v h (ix2 r q) = v (ix2 r 0) := by
  refine broadcastTo_apply v h (ix2 r q) (ix2 r 0) fun a => ?_
  match a with
  | ⟨0, _⟩ =>
    show r.val = if n = 1 then 0 else r.val
    have := r.isLt
    split <;> omega
  | ⟨1, _⟩ => rfl

/-! ## The edge kernel's product at explicit coordinates -/

theorem lhsE_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem lhsE_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem rhsE_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem rhsE_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- The product into the zero block, at row r and column q: the sum over the contracted coordinate of the
    operands' products. -/
theorem mmE_apply {φ₁ φ₂ : FTy} (x : FVec Ideal S8000x64 φ₁) (w : FVec Ideal S64x128 φ₂) (r : Fin 8000) (q : Fin 128) :
    matmul dot_S8000x64_S64x128_S8000x128_1_0_0_1_n_n none x w (constant (F := Ideal) S8000x128 .f32 0x00000000#32) (ix2 r q)
      = ∑ k : Fin 64, x (ix2 r k) * w (ix2 k q) := by
  simp only [matmul]
  rw [Ideal.matmul_constant_zero_apply, ← Equiv.sum_comp (contrEquiv1 dot_S8000x64_S64x128_S8000x128_1_0_0_1_n_n 64 rfl rfl).symm]
  refine Finset.sum_congr rfl fun k _ => ?_
  have hk := contrEquiv1_symm_val dot_S8000x64_S64x128_S8000x128_1_0_0_1_n_n 64 rfl rfl k
  have el : dot_S8000x64_S64x128_S8000x128_1_0_0_1_n_n.lhsIdx (ix2 r q) ((contrEquiv1 dot_S8000x64_S64x128_S8000x128_1_0_0_1_n_n 64 rfl rfl).symm k) = ix2 r k := funext fun a => Fin.ext (by
    match a with
    | ⟨0, _⟩ => exact lhsE_0 _ _
    | ⟨1, _⟩ => exact (lhsE_1 _ _).trans hk)
  have er : dot_S8000x64_S64x128_S8000x128_1_0_0_1_n_n.rhsIdx (ix2 r q) ((contrEquiv1 dot_S8000x64_S64x128_S8000x128_1_0_0_1_n_n 64 rfl rfl).symm k) = ix2 k q := funext fun a => Fin.ext (by
    match a with
    | ⟨0, _⟩ => exact (rhsE_0 _ _).trans hk
    | ⟨1, _⟩ => exact rhsE_1 _ _)
  rw [el, er]

/-! ## The node kernel's product at explicit coordinates -/

theorem lhsN_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsN_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsN_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsN_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero block, at row r and column q: the sum over the contracted coordinate of the
    operands' products. -/
theorem mmN_apply {φ₁ φ₂ : FTy} (x : FVec Ideal S2000x128 φ₁) (w : FVec Ideal S128x128 φ₂) (r : Fin 2000) (q : Fin 128) :
    matmul dot_S2000x128_S128x128_S2000x128_1_0_0_1_n_n none x w (constant (F := Ideal) S2000x128 .f32 0x00000000#32) (ix2 r q)
      = ∑ k : Fin 128, x (ix2 r k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q) ((contrEquiv1 dot_S2000x128_S128x128_S2000x128_1_0_0_1_n_n 128 rfl rfl).symm k) = ix2 r k := funext fun a => Fin.ext (by
    match a with
    | ⟨0, _⟩ => exact lhsN_0 _ _
    | ⟨1, _⟩ => exact (lhsN_1 _ _).trans hk)
  have er : dot_S2000x128_S128x128_S2000x128_1_0_0_1_n_n.rhsIdx (ix2 r q) ((contrEquiv1 dot_S2000x128_S128x128_S2000x128_1_0_0_1_n_n 128 rfl rfl).symm k) = ix2 k q := funext fun a => Fin.ext (by
    match a with
    | ⟨0, _⟩ => exact (rhsN_0 _ _).trans hk
    | ⟨1, _⟩ => exact rhsN_1 _ _)
  rw [el, er]

/-! ## The row normalisation -/

/-- A block whose every row is divided by that row's Euclidean norm, a zero norm replaced by one: at row r and
    lane q this is l2row of row r. -/
theorem l2_apply {n : Nat} (y : FVec Ideal ⟨2, ![n, 128]⟩ .f32)
    (hr : Shape.Reduces ⟨2, ![n, 128]⟩ [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, 128]⟩)
    (r : Fin n) (q : Fin 128) :
    divf y (broadcastTo ⟨2, ![n, 128]⟩
        (select (cmpf .oeq (sqrt (shapeCast ⟨2, ![n, 1]⟩ (multiReduction (F := Ideal) .add [1] ⟨1, ![n]⟩ (mulf y y) 0x00000000#32 hr hφ hacc) hc))
                  (broadcast ⟨2, ![n, 1]⟩ (Scalar.ofBits (F := Ideal) .f32 0x00000000#32)))
          (broadcast ⟨2, ![n, 1]⟩ (Scalar.ofBits (F := Ideal) .f32 0x3F800000#32))
          (sqrt (shapeCast ⟨2, ![n, 1]⟩ (multiReduction (F := Ideal) .add [1] ⟨1, ![n]⟩ (mulf y y) 0x00000000#32 hr hφ hacc) hc))) hb) (ix2 r q)
      = l2row (fun j => y (ix2 r j)) q := by
  rw [divf_apply, lanes_apply]
  have hs : shapeCast ⟨2, ![n, 1]⟩ (multiReduction (F := Ideal) .add [1] ⟨1, ![n]⟩ (mulf y y) 0x00000000#32 hr hφ hacc) hc (ix2 r 0)
      = ∑ k : Fin 128, y (ix2 r k) * y (ix2 r k) :=
    (col_apply _ hc r 0).trans (laneSum_apply (mulf y y) _ hr hφ hacc r)
  show Ideal.div (y (ix2 r q))
      (Scalar.select (Ideal.cmp .oeq (Ideal.sqrt (shapeCast ⟨2, ![n, 1]⟩ (multiReduction (F := Ideal) .add [1] ⟨1, ![n]⟩ (mulf y y) 0x00000000#32 hr hφ hacc) hc (ix2 r 0)))
          (Ideal.ofBits .f32 0x00000000#32)) (Ideal.ofBits .f32 0x3F800000#32)
        (Ideal.sqrt (shapeCast ⟨2, ![n, 1]⟩ (multiReduction (F := Ideal) .add [1] ⟨1, ![n]⟩ (mulf y y) 0x00000000#32 hr hφ hacc) hc (ix2 r 0)))) = _
  rw [hs, Ideal.ofBits_zero_f32, Ideal.ofBits_one_f32]
  rfl

/-! ## The two stored values -/

/-- The edge kernel's stored value at row r, column q of its block. -/
theorem pay0_apply (x : Vec Ideal S8000x64 .f32) (w : Vec Ideal S64x128 .f32) (r : Fin 8000) (q : Fin 128) :
    k0_pay1 (F := Ideal) x w (ix2 r q) = edgeRow (row x r) (mat w) q := by
  unfold k0_pay1
  refine (l2_apply _ reduces_S8000x128_S8000 (.inl rfl) rfl shapeCasts_S8000_S8000x1 broadcasts_S8000x1_S8000x128 r q).trans ?_
  unfold edgeRow
  refine congrArg (fun f => l2row f q) (funext fun j => ?_)
  rw [maximumf_apply, broadcast_apply, mmE_apply, shapeCast_self]
  show max (∑ k : Fin 64, x (ix2 r k) * w (ix2 k j)) (Ideal.ofBits .f32 0x00000000#32) = _
  rw [Ideal.ofBits_zero_f32]
  rfl

/-- The node kernel's sum of the two products before the last relu, at row r and column j. -/
theorem pay2_apply (a1 a2 : Vec Ideal S2000x128 .f32) (w1 w2 : Vec Ideal S128x128 .f32) (d : Vec Ideal S2000x1 .f32)
    (h : Vec Ideal S2000x128 .f32) (ws wn : Vec Ideal S128x128 .f32) (r : Fin 2000) (j : Fin 128) :
    k1_pay2 (F := Ideal) a1 a2 w1 w2 d h ws wn (ix2 r j)
      = ∑ k, row h r k * mat ws k j + ∑ k, hnK (row a1 r) (row a2 r) (d (ix2 r 0)) (mat w1) (mat w2) k * mat wn k j := by
  unfold k1_pay2
  rw [addf_apply, mmN_apply, mmN_apply]
  simp only [shapeCast_self]
  refine congrArg₂ (· + ·) rfl (Finset.sum_congr rfl fun k _ => congrArg (· * mat wn k j) ?_)
  rw [truncf_apply, maximumf_apply, divf_apply, addf_apply, mmN_apply, mmN_apply, lanes_apply, maximumf_apply,
    broadcast_apply, broadcast_apply]
  show max (Ideal.div ((∑ i : Fin 128, a1 (ix2 r i) * w1 (ix2 i k)) + ∑ i : Fin 128, a2 (ix2 r i) * w2 (ix2 i k))
      (max (d (ix2 r 0)) (Ideal.ofBits .f32 0x3F800000#32))) (Ideal.ofBits .f32 0x00000000#32) = _
  rw [Ideal.ofBits_zero_f32, Ideal.ofBits_one_f32]
  rfl

/-- The node kernel's stored value at row r, column q of its block. -/
theorem pay1_apply (a1 a2 : Vec Ideal S2000x128 .f32) (w1 w2 : Vec Ideal S128x128 .f32) (d : Vec Ideal S2000x1 .f32)
    (h : Vec Ideal S2000x128 .f32) (ws wn : Vec Ideal S128x128 .f32) (r : Fin 2000) (q : Fin 128) :
    k1_pay1 (F := Ideal) (k1_pay2 a1 a2 w1 w2 d h ws wn) k1_pay3 (ix2 r q)
      = outRow (row h r) (hnK (row a1 r) (row a2 r) (d (ix2 r 0)) (mat w1) (mat w2)) (mat ws) (mat wn) q := by
  unfold k1_pay1
  refine (l2_apply _ reduces_S2000x128_S2000 (.inl rfl) rfl shapeCasts_S2000_S2000x1 broadcasts_S2000x1_S2000x128 r q).trans ?_
  unfold outRow
  refine congrArg (fun f => l2row f q) (funext fun j => ?_)
  rw [maximumf_apply, pay2_apply]
  show max _ (Ideal.ofBits .f32 0x00000000#32) = _
  rw [Ideal.ofBits_zero_f32]

end Cert.KernelIdeal.KPay

end
-- ==== Proof.KVal0.lean ====
import proofs.«176896_j35304631173416_1_alg».proof.Proof.Gen.KernelIdeal.Frame
import proofs.«176896_j35304631173416_1_alg».proof.Proof.Spec
import proofs.«176896_j35304631173416_1_alg».proof.Proof.KPay
import Idealize.ShloMosaic.Lib.Pipeline.Value

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The edge kernel's block indices over its grid of 100 points: e_feats and the result move with the point along
    the rows; the weights stay at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A row of a block that is a row of the array, against all of the weights: the block's edge row is the array's. -/
theorem edgeArr_at (A : S800000x64.Idx → EReal) (W : S64x128.Idx → EReal) (x : Vec Ideal S8000x64 .f32)
    (w : Vec Ideal S64x128 .f32) (i : S800000x128.Idx) (r : Fin 8000) (q : Fin 128)
    (hx : ∀ k, x (ix2 r k) = A (ix2 (i 0) k)) (hw : ∀ k j, w (ix2 k j) = W (ix2 k j)) (hq : i 1 = q) :
    edgeRow (row x r) (mat w) q = edgeArr A W i := by
  unfold edgeArr
  rw [hq]
  congr 1
  · funext k; exact hx k
  · funext k j; exact hw k j

/-- What point t writes back is block t of the edge rows of the arrays as the region finds them. -/
theorem flushed0_eq (c : Dev nD) (t : Fin cfg0.N) :
    (dat0 V c).flushed 2 t = ((cfg0.win 2).blk t).view.read (Elt Ideal) (edgeArr (V c main_arg2) (V c main_v0)) := by
  show (cfg0.win 2).cut (grid0.coords t) ((dat0 V c).after 2 t) = _
  rw [after0_2]
  unfold out0_2
  rw [View.canon_unit_zero hz]
  simp only [View.ld_unit_zero (S := S8000x64) hz, View.ld_unit_zero (S := S64x128) hz]
  obtain ⟨e0, e1, e2, e3, e4, e5⟩ := idx_facts0 t
  funext j
  obtain ⟨r, q, rfl⟩ : ∃ (r : Fin 8000) (q : Fin 128), j = ix2 r q := ⟨j 0, j 1, eq_ix2 j⟩
  show k0_pay1 (iblk0 V c 0 t) (iblk0 V c 1 t) (ix2 r q)
    = edgeArr (V c main_arg2) (V c main_v0) (((cfg0.win 2).blk t).view.emb (ix2 r q))
  refine (Cert.KernelIdeal.KPay.pay0_apply (iblk0 V c 0 t) (iblk0 V c 1 t) r q).trans ?_
  refine edgeArr_at (V c main_arg2) (V c main_v0) (iblk0 V c 0 t) (iblk0 V c 1 t)
    (((cfg0.win 2).blk t).view.emb (ix2 r q)) r q (fun k => ?_) (fun k j => ?_) ?_
  · show V c main_arg2 (((cfg0.win 0).blk t).view.emb (ix2 r k))
      = V c main_arg2 (ix2 ((((cfg0.win 2).blk t).view.emb (ix2 r q)) 0) k)
    refine congrArg (V c main_arg2) (funext fun a => Fin.ext ?_)
    match a with
    | ⟨0, _⟩ => show win0_0.index t (0 : Fin 2) * 8000 + 1 * r.val = win0_2.index t (0 : Fin 2) * 8000 + 1 * r.val; omega
    | ⟨1, _⟩ => show win0_0.index t (1 : Fin 2) * 64 + 1 * k.val = k.val; omega
  · show V c main_v0 (((cfg0.win 1).blk t).view.emb (ix2 k j)) = V c main_v0 (ix2 k j)
    refine congrArg (V c main_v0) (funext fun a => Fin.ext ?_)
    match a with
    | ⟨0, _⟩ => show win0_1.index t (0 : Fin 2) * 64 + 1 * k.val = k.val; omega
    | ⟨1, _⟩ => show win0_1.index t (1 : Fin 2) * 128 + 1 * j.val = j.val; omega
  · refine Fin.ext ?_
    show win0_2.index t (1 : Fin 2) * 128 + 1 * q.val = q.val
    omega

/-- An index of the result is in point t's block iff each coordinate is in the block's range on its axis. -/
theorem mem_blk0 (t : Fin cfg0.N) (i : S800000x128.Idx) :
    i ∈ ((cfg0.win 2).blk t).view.set ↔ ∀ a : Fin 2, win0_2.index t a * S8000x128.size a ≤ (i a).val
      ∧ (i a).val < win0_2.index t a * S8000x128.size a + S8000x128.size a := by
  show i ∈ ((View.whole main_v1).slice (win0_2.rect t)).set ↔ _
  rw [View.set_slice_whole, Rect.mem_set_unit]
  exact Iff.rfl

/-- Row e of the result lies in the block of point e / 8000. -/
theorem cover0 (i : S800000x128.Idx) :
    ∃ t : Fin cfg0.N, (cfg0.win 2).flush t = true ∧ i ∈ ((cfg0.win 2).blk t).view.set := by
  have hi0 : (i 0).val < 800000 := (i 0).isLt
  have hi1 : (i 1).val < 128 := (i 1).isLt
  have hN : grid0.N = 100 := N_0
  have ht : (i 0).val / 8000 < cfg0.N := by show _ < grid0.N; omega
  refine ⟨⟨(i 0).val / 8000, ht⟩, flush0_2 _, ?_⟩
  rw [mem_blk0]
  obtain ⟨e0, e1, e2, e3, e4, e5⟩ := idx_facts0 ⟨(i 0).val / 8000, ht⟩
  intro a
  match a with
  | ⟨0, _⟩ =>
    show win0_2.index ⟨(i 0).val / 8000, ht⟩ (0 : Fin 2) * 8000 ≤ (i 0).val
      ∧ (i 0).val < win0_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win0_2.index ⟨(i 0).val / 8000, ht⟩ (1 : Fin 2) * 128 ≤ (i 1).val
      ∧ (i 1).val < win0_2.index ⟨(i 0).val / 8000, ht⟩ (1 : Fin 2) * 128 + 128
    rw [e5]; omega

/-- The edge kernel's result array after its region: every edge row of the arrays as the region finds them. -/
theorem final0 (c : Dev nD) : (dat0 V c).arrAt 2 cfg0.N = edgeArr (V c main_arg2) (V c main_v0) :=
  (dat0 V c).arrAt_eq_of_cover 2 _ (fun t _ => flushed0_eq V c t) cover0

end Cert.KernelIdeal.KVal

end
-- ==== Proof.KVal1.lean ====
import proofs.«176896_j35304631173416_1_alg».proof.Proof.Gen.KernelIdeal.Frame
import proofs.«176896_j35304631173416_1_alg».proof.Proof.Spec
import proofs.«176896_j35304631173416_1_alg».proof.Proof.KPay
import Idealize.ShloMosaic.Lib.Pipeline.Value

set_option maxRecDepth 16384

noncomputable section

namespace Cert.KernelIdeal.KVal1

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The node kernel's block indices over its grid of 25 points: the two aggregated halves, the degree column, h_self
    and the result move with the point along the rows; the four weight matrices stay at block (0, 0). -/
theorem idx_facts1 : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

/-- Rows of blocks that are rows of the arrays, against all of the weights: the block's node row is the array's. -/
theorem fuseArr_at (A1 A2 : S50000x128.Idx → EReal) (Dg : S50000x1.Idx → EReal) (H : S50000x128.Idx → EReal)
    (W1 W2 Ws Wn : S128x128.Idx → EReal)
    (a1 a2 : Vec Ideal S2000x128 .f32) (w1 w2 : Vec Ideal S128x128 .f32) (d : Vec Ideal S2000x1 .f32)
    (h : Vec Ideal S2000x128 .f32) (ws wn : Vec Ideal S128x128 .f32)
    (i : S50000x128.Idx) (r : Fin 2000) (q : Fin 128)
    (h1 : ∀ k, a1 (ix2 r k) = A1 (ix2 (i 0) k)) (h2 : ∀ k, a2 (ix2 r k) = A2 (ix2 (i 0) k))
    (hd : d (ix2 r 0) = Dg (ix2 (i 0) 0)) (hh : ∀ k, h (ix2 r k) = H (ix2 (i 0) k))
    (hw1 : ∀ k j, w1 (ix2 k j) = W1 (ix2 k j)) (hw2 : ∀ k j, w2 (ix2 k j) = W2 (ix2 k j))
    (hws : ∀ k j, ws (ix2 k j) = Ws (ix2 k j)) (hwn : ∀ k j, wn (ix2 k j) = Wn (ix2 k j)) (hq : i 1 = q) :
    outRow (row h r) (hnK (row a1 r) (row a2 r) (d (ix2 r 0)) (mat w1) (mat w2)) (mat ws) (mat wn) q
      = fuseArr A1 A2 Dg H W1 W2 Ws Wn i := by
  unfold fuseArr
  have e1 : row a1 r = row A1 (i 0) := funext h1
  have e2 : row a2 r = row A2 (i 0) := funext h2
  have eh : row h r = row H (i 0) := funext hh
  have f1 : mat w1 = mat W1 := funext fun k => funext fun j => hw1 k j
  have f2 : mat w2 = mat W2 := funext fun k => funext fun j => hw2 k j
  have fs : mat ws = mat Ws := funext fun k => funext fun j => hws k j
  have fn : mat wn = mat Wn := funext fun k => funext fun j => hwn k j
  rw [hq, e1, e2, eh, f1, f2, fs, fn, hd]

/-- What point t writes back is block t of the node rows of the arrays as the region finds them. -/
theorem flushed1_eq (c : Dev nD) (t : Fin cfg1.N) :
    (dat1 V c).flushed 8 t = ((cfg1.win 8).blk t).view.read (Elt Ideal)
      (fuseArr (V c main_v11) (V c main_v14) (V c main_v25) (V c main_arg1) (V c main_v20) (V c main_v22) (V c main_v23) (V c main_v24)) := by
  show (cfg1.win 8).cut (grid1.coords t) ((dat1 V c).after 8 t) = _
  rw [after1_8]
  unfold out1_8
  rw [View.canon_unit_zero hz]
  simp only [View.ld_unit_zero (S := S2000x128) hz, View.ld_unit_zero (S := S128x128) hz, View.ld_unit_zero (S := S2000x1) hz]
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := idx_facts1 t
  funext j
  obtain ⟨r, q, rfl⟩ : ∃ (r : Fin 2000) (q : Fin 128), j = ix2 r q := ⟨j 0, j 1, eq_ix2 j⟩
  show k1_pay1 (k1_pay2 (iblk1 V c 0 t) (iblk1 V c 1 t) (iblk1 V c 4 t) (iblk1 V c 5 t) (iblk1 V c 2 t) (iblk1 V c 3 t) (iblk1 V c 6 t) (iblk1 V c 7 t)) k1_pay3 (ix2 r q)
    = fuseArr (V c main_v11) (V c main_v14) (V c main_v25) (V c main_arg1) (V c main_v20) (V c main_v22) (V c main_v23) (V c main_v24)
        (((cfg1.win 8).blk t).view.emb (ix2 r q))
  refine (Cert.KernelIdeal.KPay.pay1_apply (iblk1 V c 0 t) (iblk1 V c 1 t) (iblk1 V c 4 t) (iblk1 V c 5 t) (iblk1 V c 2 t) (iblk1 V c 3 t) (iblk1 V c 6 t) (iblk1 V c 7 t) r q).trans ?_
  refine fuseArr_at (V c main_v11) (V c main_v14) (V c main_v25) (V c main_arg1) (V c main_v20) (V c main_v22) (V c main_v23) (V c main_v24)
    (iblk1 V c 0 t) (iblk1 V c 1 t) (iblk1 V c 4 t) (iblk1 V c 5 t) (iblk1 V c 2 t) (iblk1 V c 3 t) (iblk1 V c 6 t) (iblk1 V c 7 t)
    (((cfg1.win 8).blk t).view.emb (ix2 r q)) r q (fun k => ?_) (fun k => ?_) ?_ (fun k => ?_) (fun k j => ?_) (fun k j => ?_) (fun k j => ?_) (fun k j => ?_) ?_
  · show V c main_v11 (((cfg1.win 0).blk t).view.emb (ix2 r k)) = V c main_v11 (ix2 ((((cfg1.win 8).blk t).view.emb (ix2 r q)) 0) k)
    refine congrArg (V c main_v11) (funext fun a => Fin.ext ?_)
    match a with
    | ⟨0, _⟩ => show win1_0.index t (0 : Fin 2) * 2000 + 1 * r.val = win1_8.index t (0 : Fin 2) * 2000 + 1 * r.val; omega
    | ⟨1, _⟩ => show win1_0.index t (1 : Fin 2) * 128 + 1 * k.val = k.val; omega
  · show V c main_v14 (((cfg1.win 1).blk t).view.emb (ix2 r k)) = V c main_v14 (ix2 ((((cfg1.win 8).blk t).view.emb (ix2 r q)) 0) k)
    refine congrArg (V c main_v14) (funext fun a => Fin.ext ?_)
    match a with
    | ⟨0, _⟩ => show win1_1.index t (0 : Fin 2) * 2000 + 1 * r.val = win1_8.index t (0 : Fin 2) * 2000 + 1 * r.val; omega
    | ⟨1, _⟩ => show win1_1.index t (1 : Fin 2) * 128 + 1 * k.val = k.val; omega
  · show V c main_v25 (((cfg1.win 2).blk t).view.emb (ix2 r 0)) = V c main_v25 (ix2 ((((cfg1.win 8).blk t).view.emb (ix2 r q)) 0) 0)
    refine congrArg (V c main_v25) (funext fun a => Fin.ext ?_)
    match a with
    | ⟨0, _⟩ => show win1_2.index t (0 : Fin 2) * 2000 + 1 * r.val = win1_8.index t (0 : Fin 2) * 2000 + 1 * r.val; omega
    | ⟨1, _⟩ => show win1_2.index t (1 : Fin 2) * 1 + 1 * 0 = 0; omega
  · show V c main_arg1 (((cfg1.win 3).blk t).view.emb (ix2 r k)) = V c main_arg1 (ix2 ((((cfg1.win 8).blk t).view.emb (ix2 r q)) 0) k)
    refine congrArg (V c main_arg1) (funext fun a => Fin.ext ?_)
    match a with
    | ⟨0, _⟩ => show win1_3.index t (0 : Fin 2) * 2000 + 1 * r.val = win1_8.index t (0 : Fin 2) * 2000 + 1 * r.val; omega
    | ⟨1, _⟩ => show win1_3.index t (1 : Fin 2) * 128 + 1 * k.val = k.val; omega
  · show V c main_v20 (((cfg1.win 4).blk t).view.emb (ix2 k j)) = V c main_v20 (ix2 k j)
    refine congrArg (V c main_v20) (funext fun a => Fin.ext ?_)
    match a with
    | ⟨0, _⟩ => show win1_4.index t (0 : Fin 2) * 128 + 1 * k.val = k.val; omega
    | ⟨1, _⟩ => show win1_4.index t (1 : Fin 2) * 128 + 1 * j.val = j.val; omega
  · show V c main_v22 (((cfg1.win 5).blk t).view.emb (ix2 k j)) = V c main_v22 (ix2 k j)
    refine congrArg (V c main_v22) (funext fun a => Fin.ext ?_)
    match a with
    | ⟨0, _⟩ => show win1_5.index t (0 : Fin 2) * 128 + 1 * k.val = k.val; omega
    | ⟨1, _⟩ => show win1_5.index t (1 : Fin 2) * 128 + 1 * j.val = j.val; omega
  · show V c main_v23 (((cfg1.win 6).blk t).view.emb (ix2 k j)) = V c main_v23 (ix2 k j)
    refine congrArg (V c main_v23) (funext fun a => Fin.ext ?_)
    match a with
    | ⟨0, _⟩ => show win1_6.index t (0 : Fin 2) * 128 + 1 * k.val = k.val; omega
    | ⟨1, _⟩ => show win1_6.index t (1 : Fin 2) * 128 + 1 * j.val = j.val; omega
  · show V c main_v24 (((cfg1.win 7).blk t).view.emb (ix2 k j)) = V c main_v24 (ix2 k j)
    refine congrArg (V c main_v24) (funext fun a => Fin.ext ?_)
    match a with
    | ⟨0, _⟩ => show win1_7.index t (0 : Fin 2) * 128 + 1 * k.val = k.val; omega
    | ⟨1, _⟩ => show win1_7.index t (1 : Fin 2) * 128 + 1 * j.val = j.val; omega
  · refine Fin.ext ?_
    show win1_8.index t (1 : Fin 2) * 128 + 1 * q.val = q.val
    omega

/-- An index of the result is in point t's block iff each coordinate is in the block's range on its axis. -/
theorem mem_blk1 (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v26).slice (win1_8.rect t)).set ↔ _
  rw [View.set_slice_whole, Rect.mem_set_unit]
  exact Iff.rfl

/-- Row n of the result lies in the block of point n / 2000. -/
theorem cover1 (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : grid1.N = 25 := N_1
  have ht : (i 0).val / 2000 < cfg1.N := by show _ < grid1.N; omega
  refine ⟨⟨(i 0).val / 2000, ht⟩, flush1_8 _, ?_⟩
  rw [mem_blk1]
  obtain ⟨-, -, -, -, -, -, -, -, ⟨a8, b8⟩⟩ := idx_facts1 ⟨(i 0).val / 2000, ht⟩
  intro a
  match a with
  | ⟨0, _⟩ =>
    show win1_8.index ⟨(i 0).val / 2000, ht⟩ (0 : Fin 2) * 2000 ≤ (i 0).val
      ∧ (i 0).val < win1_8.index ⟨(i 0).val / 2000, ht⟩ (0 : Fin 2) * 2000 + 2000
    rw [a8]; show (i 0).val / 2000 * 2000 ≤ (i 0).val ∧ (i 0).val < (i 0).val / 2000 * 2000 + 2000; omega
  | ⟨1, _⟩ =>
    show win1_8.index ⟨(i 0).val / 2000, ht⟩ (1 : Fin 2) * 128 ≤ (i 1).val
      ∧ (i 1).val < win1_8.index ⟨(i 0).val / 2000, ht⟩ (1 : Fin 2) * 128 + 128
    rw [b8]; omega

/-- The node kernel's result array after its region: every node row of the arrays as the region finds them. -/
theorem final1 (c : Dev nD) : (dat1 V c).arrAt 8 cfg1.N
    = fuseArr (V c main_v11) (V c main_v14) (V c main_v25) (V c main_arg1) (V c main_v20) (V c main_v22) (V c main_v23) (V c main_v24) :=
  (dat1 V c).arrAt_eq_of_cover 8 _ (fun t _ => flushed1_eq V c t) cover1

end Cert.KernelIdeal.KVal1

end
-- ==== Proof.KHost.lean ====
import proofs.«176896_j35304631173416_1_alg».proof.Proof.Gen.KernelIdeal.Frame
import Idealize.ShloMosaic.Lib.StableHlo.Run
import Idealize.ShloMosaic.PureOps.Ideal

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen

/-! The host operations' results as functions of the arrays they read -/

/-- Source indices: a negative index counts from the end; as a column. -/
def srcIdx (x7 : (⟨S800000, .i32⟩ : BufTy).Contents (Elt Ideal)) : (⟨S800000x1, .i32⟩ : BufTy).Contents (Elt Ideal) :=
  broadcastInDim S800000x1 ![0] bcast_S800000_S800000x1_0
    (select (cmpi .slt x7 (broadcastInDim S800000 ![] bcast_S_S800000 (constantI S_ 32 0#32)))
      (addi x7 (broadcastInDim S800000 ![] bcast_S_S800000 (constantI S_ 32 50000#32))) x7)

/-- Destination indices as a column. -/
def dstIdx (x8 : (⟨S800000, .i32⟩ : BufTy).Contents (Elt Ideal)) : (⟨S800000x1, .i32⟩ : BufTy).Contents (Elt Ideal) :=
  broadcastInDim S800000x1 ![0] bcast_S800000_S800000x1_0 x8

/-- The gathered source rows h_neigh[src]. -/
def hsrc (x0 : (⟨S50000x128, .f32⟩ : BufTy).Contents (Elt Ideal)) (x7 : (⟨S800000, .i32⟩ : BufTy).Contents (Elt Ideal)) :
    (⟨S800000x128, .f32⟩ : BufTy).Contents (Elt Ideal) :=
  Host.gather gather_S50000x128_S800000x1_S800000x128_1_0_n_n_0_1_1128 x0 (srcIdx x7)

/-- Rows summed by destination node, from zero. -/
def segsum (u : (⟨S800000x128, .f32⟩ : BufTy).Contents (Elt Ideal)) (x8 : (⟨S800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32)) (dstIdx x8) u

/-- The degree column: ones summed by destination node, from zero, as a column. -/
def degcol (x8 : (⟨S800000, .i32⟩ : BufTy).Contents (Elt Ideal)) : (⟨S50000x1, .f32⟩ : BufTy).Contents (Elt Ideal) :=
  shapeCast S50000x1 (Host.scatterAdd (F := Ideal) scatter_S50000_S800000x1_S800000_n_0_0_1
    (broadcastInDim S50000 ![] bcast_S_S50000 (constant (F := Ideal) S_ .f32 0x00000000#32)) (dstIdx x8)
    (broadcastInDim S800000 ![] bcast_S_S800000 (constant (F := Ideal) S_ .f32 0x3F800000#32))) shapeCasts_S50000_S50000x1

variable (Wv : Valuation τ sig (Elt Ideal))

theorem after0_v0 : StableHlo.after (hostOps0 (F := Ideal)) Wv (Proc.devRef .tc main_v0)
    = transpose S64x128 [1, 0] (Wv (Proc.devRef .tc main_arg3)) transposes_S128x64_S64x128_1_0 := by
  after_results
  all_goals rfl

theorem after0_arg2 : StableHlo.after (hostOps0 (F := Ideal)) Wv (Proc.devRef .tc main_arg2) = Wv (Proc.devRef .tc main_arg2) := by
  after_results
  all_goals rfl

theorem after1_v11 : StableHlo.after (hostOps1 (F := Ideal)) Wv (Proc.devRef .tc main_v11)
    = segsum (hsrc (Wv (Proc.devRef .tc main_arg0)) (Wv (Proc.devRef .tc main_arg7))) (Wv (Proc.devRef .tc main_arg8)) := by
  after_results
  all_goals rfl

theorem after1_v14 : StableHlo.after (hostOps1 (F := Ideal)) Wv (Proc.devRef .tc main_v14)
    = segsum (Wv (Proc.devRef .tc main_v1)) (Wv (Proc.devRef .tc main_arg8)) := by
  after_results
  all_goals rfl

theorem after1_v25 : StableHlo.after (hostOps1 (F := Ideal)) Wv (Proc.devRef .tc main_v25) = degcol (Wv (Proc.devRef .tc main_arg8)) := by
  after_results
  all_goals rfl

theorem after1_arg1 : StableHlo.after (hostOps1 (F := Ideal)) Wv (Proc.devRef .tc main_arg1) = Wv (Proc.devRef .tc main_arg1) := by
  after_results
  all_goals rfl

theorem after1_v20 : StableHlo.after (hostOps1 (F := Ideal)) Wv (Proc.devRef .tc main_v20)
    = transpose S128x128 [1, 0] (extractStridedSlice S128x128 ![0, 0] (Wv (Proc.devRef .tc main_arg4)) slices_S128x256_S128x128_0_0) transposes_S128x128_S128x128_1_0 := by
  after_results
  all_goals rfl

theorem after1_v22 : StableHlo.after (hostOps1 (F := Ideal)) Wv (Proc.devRef .tc main_v22)
    = transpose S128x128 [1, 0] (extractStridedSlice S128x128 ![0, 128] (Wv (Proc.devRef .tc main_arg4)) slices_S128x256_S128x128_0_128) transposes_S128x128_S128x128_1_0 := by
  after_results
  all_goals rfl

theorem after1_v23 : StableHlo.after (hostOps1 (F := Ideal)) Wv (Proc.devRef .tc main_v23)
    = transpose S128x128 [1, 0] (Wv (Proc.devRef .tc main_arg5)) transposes_S128x128_S128x128_1_0 := by
  after_results
  all_goals rfl

theorem after1_v24 : StableHlo.after (hostOps1 (F := Ideal)) Wv (Proc.devRef .tc main_v24)
    = transpose S128x128 [1, 0] (Wv (Proc.devRef .tc main_arg6)) transposes_S128x128_S128x128_1_0 := by
  after_results
  all_goals rfl

end Cert.KernelIdeal.KHost

end
-- ==== Proof.LibRowOps.lean ====
/-
  Row scatter-add and row gather, read at an index and compared across two operand heights.

  A scatter-add of rows into an array of N rows (scatter indices [E, 1], one node index per update row; jax's
  segment_sum and x.at[idx].add(u)) adds update row e to operand row idx[e] when 0 ≤ idx[e] < N, read as a signed
  integer, and drops it otherwise; a gather of rows (x[idx]) reads operand row idx[e] clamped into [0, N − 1].
  Hence, when every index lies in [0, N') with N' ≤ N, both operations on an N-row array and on an N'-row array
  whose rows are the first N' rows of the former agree: the gathers everywhere, the scatters on the first N' rows.
-/
import Idealize.ShloMosaic.PureOps.Ideal
import Idealize.ShloMosaic.Lib.ValueIdx

noncomputable section

namespace Cert.Lib.RowOps

open Idealize.ShloMosaic Idealize.ShloMosaic.ValueIdx

/-- Scatter rows of a vector: operand [N], scatter indices [E, 1], updates [E]. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter rows of a matrix: operand [N, D], scatter indices [E, 1], updates [E, D]. -/
abbrev scat2 (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Gather entries of a vector: operand [N], start indices [E, 1], result [E]. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather rows of a matrix: operand [N, D], start indices [E, 1], result [E, D]. -/
abbrev gath2 (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Every index of the column lies in [0, M). -/
def InRange {E w : Nat} (idx : IVec ⟨2, ![E, 1]⟩ w) (M : Nat) : Prop :=
  ∀ e : Fin E, 0 ≤ (idx (ix2 e (0 : Fin 1))).toInt ∧ (idx (ix2 e (0 : Fin 1))).toInt < (M : Int)

/-- The first N' entries of a agree with b. -/
def Agree1 {α : Type} {N N' : Nat} (h : N' ≤ N) (a : (⟨1, ![N]⟩ : Shape).Idx → α) (b : (⟨1, ![N']⟩ : Shape).Idx → α) : Prop :=
  ∀ n : Fin N', a (ix1 ⟨n.val, lt_of_lt_of_le n.isLt h⟩) = b (ix1 n)

/-- The first N' rows of A agree with B. -/
def Agree2 {α : Type} {N N' D : Nat} (h : N' ≤ N) (A : (⟨2, ![N, D]⟩ : Shape).Idx → α) (B : (⟨2, ![N', D]⟩ : Shape).Idx → α) : Prop :=
  ∀ (n : Fin N') (c : Fin D), A (ix2 ⟨n.val, lt_of_lt_of_le n.isLt h⟩ c) = B (ix2 n c)

/-! ## Read at an index -/

/-- Where an update lands: the operand index whose every coordinate is the start plus the window coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := (h a).1
      simp only [Int.toNat_of_nonneg this]
    · intro hh
      funext a
      refine Fin.ext ?_
      simp only [hh a, Int.toNat_natCast]
  · constructor
    · intro hh; cases hh
    · intro hh
      exfalso
      apply h
      intro a
      rw [hh a]
      exact ⟨Int.natCast_nonneg _, by exact_mod_cast (i a).isLt⟩

section Scat2
variable {N D E w : Nat} (wf : ScatterDims.WF ⟨2, ![N, D]⟩ ⟨2, ![E, 1]⟩ ⟨2, ![E, D]⟩ [1] [0] [0] 1)

/-- The scattered axis reads the index column, signed. -/
private theorem scat2_start0 (j : (⟨2, ![E, D]⟩ : Shape).Idx) (idx : IVec ⟨2, ![E, 1]⟩ w) :
    (scat2 N D E wf).start j idx 0 = (idx (ix2 (j 0) (0 : Fin 1))).toInt := by
  unfold ScatterDims.start
  rw [dif_pos (show (0 : Fin 2) ∈ (scat2 N D E wf).scatterDimsToOperandDims from List.mem_singleton.mpr rfl)]
  have hsi : (scat2 N D E wf).siIdx j ⟨List.idxOf (0 : Fin 2) (scat2 N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column axis is not scattered: its start is 0. -/
private theorem scat2_start1 (j : (⟨2, ![E, D]⟩ : Shape).Idx) (idx : IVec ⟨2, ![E, 1]⟩ w) :
    (scat2 N D E wf).start j idx 1 = 0 := by
  unfold ScatterDims.start
  rw [dif_neg (show ¬ (1 : Fin 2) ∈ (scat2 N D E wf).scatterDimsToOperandDims by simp)]

/-- The row axis is inserted: no window coordinate. -/
private theorem scat2_window0 (j : (⟨2, ![E, D]⟩ : Shape).Idx) :
    (scat2 N D E wf).window j 0 = 0 := by
  unfold ScatterDims.window
  rw [dif_neg (show ¬ (0 : Fin 2) ∈ (scat2 N D E wf).sKept by simp [ScatterDims.sKept, Shape.kept])]

/-- The column axis is the window axis: its coordinate is the update's column. -/
private theorem scat2_window1 (j : (⟨2, ![E, D]⟩ : Shape).Idx) :
    (scat2 N D E wf).window j 1 = (j 1).val := by
  unfold ScatterDims.window
  rw [dif_pos (show (1 : Fin 2) ∈ (scat2 N D E wf).sKept by simp [ScatterDims.sKept, Shape.kept])]
  rfl

/-- Update (e, c') lands on (n, c) exactly when its index, read signed, is n and the columns agree. -/
private theorem scat2_lands (e : Fin E) (c' : Fin D) (n : Fin N) (c : Fin D) (idx : IVec ⟨2, ![E, 1]⟩ w) :
    (scat2 N D E wf).resultIdx? (ix2 e c') idx = some (ix2 n c)
      ↔ (idx (ix2 e (0 : Fin 1))).toInt = (n.val : Int) ∧ c' = c := by
  rw [resultIdx?_eq_some_iff]
  constructor
  · intro hh
    have h0 := hh 0
    have h1 := hh 1
    rw [scat2_start0, scat2_window0] at h0
    rw [scat2_start1, scat2_window1] at h1
    have h0' : (idx (ix2 e (0 : Fin 1))).toInt + ((0 : Nat) : Int) = (n.val : Int) := h0
    have h1' : (0 : Int) + ((c'.val : Nat) : Int) = (c.val : Int) := h1
    refine ⟨by simpa using h0', Fin.ext ?_⟩
    omega
  · rintro ⟨e0, rfl⟩ a
    match a with
    | ⟨0, _⟩ =>
      show (scat2 N D E wf).start (ix2 e c') idx 0 + ((scat2 N D E wf).window (ix2 e c') 0 : Int) = (n.val : Int)
      rw [scat2_start0, scat2_window0]
      show (idx (ix2 e (0 : Fin 1))).toInt + ((0 : Nat) : Int) = (n.val : Int)
      simpa using e0
    | ⟨1, _⟩ =>
      show (scat2 N D E wf).start (ix2 e c') idx 1 + ((scat2 N D E wf).window (ix2 e c') 1 : Int) = (c'.val : Int)
      rw [scat2_start1, scat2_window1]
      show (0 : Int) + ((c'.val : Nat) : Int) = (c'.val : Int)
      simp

end Scat2

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

section Scat1
variable {N E w : Nat} (wf : ScatterDims.WF ⟨1, ![N]⟩ ⟨2, ![E, 1]⟩ ⟨1, ![E]⟩ [] [0] [0] 1)

/-- The scattered axis reads the index column, signed. -/
private theorem scat1_start0 (j : (⟨1, ![E]⟩ : Shape).Idx) (idx : IVec ⟨2, ![E, 1]⟩ w) :
    (scat1 N E wf).start j idx 0 = (idx (ix2 (j 0) (0 : Fin 1))).toInt := by
  unfold ScatterDims.start
  rw [dif_pos (show (0 : Fin 1) ∈ (scat1 N E wf).scatterDimsToOperandDims from List.mem_singleton.mpr rfl)]
  have hsi : (scat1 N E wf).siIdx j ⟨List.idxOf (0 : Fin 1) (scat1 N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: no window coordinate. -/
private theorem scat1_window0 (j : (⟨1, ![E]⟩ : Shape).Idx) :
    (scat1 N E wf).window j 0 = 0 := by
  unfold ScatterDims.window
  rw [dif_neg (show ¬ (0 : Fin 1) ∈ (scat1 N E wf).sKept by simp [ScatterDims.sKept, Shape.kept])]

/-- Update e lands on entry n exactly when its index, read signed, is n. -/
private theorem scat1_lands (e : Fin E) (n : Fin N) (idx : IVec ⟨2, ![E, 1]⟩ w) :
    (scat1 N E wf).resultIdx? (ix1 e) idx = some (ix1 n) ↔ (idx (ix2 e (0 : Fin 1))).toInt = (n.val : Int) := by
  rw [resultIdx?_eq_some_iff]
  constructor
  · intro hh
    have h0 := hh 0
    rw [scat1_start0, scat1_window0] at h0
    have h0' : (idx (ix2 e (0 : Fin 1))).toInt + ((0 : Nat) : Int) = (n.val : Int) := h0
    simpa using h0'
  · intro e0 a
    obtain rfl : a = 0 := Subsingleton.elim _ _
    rw [scat1_start0, scat1_window0]
    show (idx (ix2 e (0 : Fin 1))).toInt + ((0 : Nat) : Int) = (n.val : Int)
    simpa using e0

end Scat1

theorem scat1_apply {N E w : Nat} (wf) (x : (⟨1, ![N]⟩ : Shape).Idx → EReal) (idx : IVec ⟨2, ![E, 1]⟩ w)
    (upd : (⟨1, ![E]⟩ : Shape).Idx → EReal) (n : Fin N) :
    Ideal.hostScatterAdd (scat1 N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter, sum_idx1]
  refine Finset.sum_congr rfl fun e _ => ?_
  simp only [scat1_lands]

theorem scat2_apply {N D E w : Nat} (wf) (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (scat2 N D E wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [scat2_lands]
  by_cases hq : (idx (ix2 e (0 : Fin 1))).toInt = (n.val : Int)
  · simp only [hq, true_and, if_true]
    rw [Finset.sum_ite_eq']
    simp
  · simp only [hq, false_and, if_false]
    simp

theorem gath1_apply {α : Type} {N E w : Nat} (hN : 0 < N) (wf) (x : (⟨1, ![N]⟩ : Shape).Idx → α) (idx : IVec ⟨2, ![E, 1]⟩ w) (e : Fin E) :
    Host.gather (gath1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N E wf).startIndexMap from List.mem_singleton.mpr rfl)]
  have hsi : (gath1 N E wf).siIdx (ix1 e) ⟨List.idxOf (0 : Fin 1) (gath1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gath2_apply {α : Type} {N D E w : Nat} (hN : 0 < N) (wf) (x : (⟨2, ![N, D]⟩ : Shape).Idx → α) (idx : IVec ⟨2, ![E, 1]⟩ w)
    (e : Fin E) (c : Fin D) :
    Host.gather (gath2 N D E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gath2 N D E wf).start (ix2 e c) idx 0 + (gath2 N D E wf).batchCoord (ix2 e c) 0 + (gath2 N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N D E wf).startIndexMap from List.mem_singleton.mpr rfl)]
    have hsi : (gath2 N D E wf).siIdx (ix2 e c) ⟨List.idxOf (0 : Fin 2) (gath2 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 N D E wf).start (ix2 e c) idx 1 + (gath2 N D E wf).batchCoord (ix2 e c) 1 + (gath2 N D E wf).offCoord (ix2 e c) 1 = _
    rw [GatherDims.batchCoord_eq_zero _ _ _ List.not_mem_nil]
    unfold GatherDims.start
    rw [dif_neg (show ¬ (1 : Fin 2) ∈ (gath2 N D E wf).startIndexMap by simp)]
    unfold GatherDims.offCoord
    rw [dif_pos (show (1 : Fin 2) ∈ (gath2 N D E wf).sKept from (GatherDims.mem_sKept _ _).mpr ⟨by simp, List.not_mem_nil⟩)]
    simp only [Nat.zero_add]
    rfl

/-! ## Two operand heights, every index below the smaller -/

/-- An index in [0, M) with M at most K is its own clamp into [0, K − 1]. -/
private theorem clamp_eq {t : Int} {M K : Nat} (h0 : 0 ≤ t) (h1 : t < (M : Int)) (hMK : M ≤ K) :
    min t.toNat (K - 1) = t.toNat := by
  omega

theorem gath1_agree {α : Type} {N N' E w : Nat} (h : N' ≤ N) (hN' : 0 < N') (wf) (wf')
    (a : (⟨1, ![N]⟩ : Shape).Idx → α) (b : (⟨1, ![N']⟩ : Shape).Idx → α) (hab : Agree1 h a b)
    (idx : IVec ⟨2, ![E, 1]⟩ w) (hr : InRange idx N') :
    Host.gather (gath1 N E wf) a idx = Host.gather (gath1 N' E wf') b idx := by
  funext j
  obtain ⟨e, rfl⟩ : ∃ e, j = ix1 e := ⟨j 0, eq_ix1 j⟩
  rw [gath1_apply (lt_of_lt_of_le hN' h), gath1_apply hN']
  obtain ⟨h0, h1⟩ := hr e
  have key : ∀ (p q : Nat) (hp : p < N) (hq : q < N'), p = q → a (ix1 ⟨p, hp⟩) = b (ix1 ⟨q, hq⟩) := by
    intro p q hp hq hpq
    subst hpq
    exact hab ⟨p, hq⟩
  exact key _ _ _ _ ((clamp_eq h0 h1 h).trans (clamp_eq h0 h1 le_rfl).symm)

theorem gath2_agree {α : Type} {N N' D E w : Nat} (h : N' ≤ N) (hN' : 0 < N') (wf) (wf')
    (A : (⟨2, ![N, D]⟩ : Shape).Idx → α) (B : (⟨2, ![N', D]⟩ : Shape).Idx → α) (hAB : Agree2 h A B)
    (idx : IVec ⟨2, ![E, 1]⟩ w) (hr : InRange idx N') :
    Host.gather (gath2 N D E wf) A idx = Host.gather (gath2 N' D E wf') B idx := by
  funext j
  obtain ⟨e, c, rfl⟩ : ∃ e c, j = ix2 e c := ⟨j 0, j 1, eq_ix2 j⟩
  rw [gath2_apply (lt_of_lt_of_le hN' h), gath2_apply hN']
  obtain ⟨h0, h1⟩ := hr e
  have key : ∀ (p q : Nat) (hp : p < N) (hq : q < N'), p = q → A (ix2 ⟨p, hp⟩ c) = B (ix2 ⟨q, hq⟩ c) := by
    intro p q hp hq hpq
    subst hpq
    exact hAB ⟨p, hq⟩ c
  exact key _ _ _ _ ((clamp_eq h0 h1 h).trans (clamp_eq h0 h1 le_rfl).symm)

theorem scat1_agree {N N' E w : Nat} (h : N' ≤ N) (wf) (wf')
    (x : (⟨1, ![N]⟩ : Shape).Idx → EReal) (x' : (⟨1, ![N']⟩ : Shape).Idx → EReal) (hx : Agree1 h x x')
    (idx : IVec ⟨2, ![E, 1]⟩ w) (upd : (⟨1, ![E]⟩ : Shape).Idx → EReal) :
    Agree1 h (Ideal.hostScatterAdd (scat1 N E wf) x idx upd) (Ideal.hostScatterAdd (scat1 N' E wf') x' idx upd) := by
  intro n
  rw [scat1_apply, scat1_apply, hx n]

theorem scat2_agree {N N' D E w : Nat} (h : N' ≤ N) (wf) (wf')
    (x : (⟨2, ![N, D]⟩ : Shape).Idx → EReal) (x' : (⟨2, ![N', D]⟩ : Shape).Idx → EReal) (hx : Agree2 h x x')
    (idx : IVec ⟨2, ![E, 1]⟩ w) (upd : (⟨2, ![E, D]⟩ : Shape).Idx → EReal) :
    Agree2 h (Ideal.hostScatterAdd (scat2 N D E wf) x idx upd) (Ideal.hostScatterAdd (scat2 N' D E wf') x' idx upd) := by
  intro n c
  rw [scat2_apply, scat2_apply, hx n c]

end Cert.Lib.RowOps

end
-- ==== Proof.RefValue.lean ====
import proofs.«176896_j35304631173416_1_alg».proof.Proof.Gen.ReferenceIdeal.Run
import proofs.«176896_j35304631173416_1_alg».proof.Proof.Gen.ReferenceIdeal.Read
import proofs.«176896_j35304631173416_1_alg».proof.Proof.Spec
import proofs.«176896_j35304631173416_1_alg».proof.Proof.LibRowOps
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.RefValue

open Idealize.ShloMosaic Idealize.ShloMosaic.ValueIdx Cert.ReferenceIdeal Cert.ReferenceIdeal.Gen Cert.ReferenceIdeal.Read Cert.Spec

/-! ## The edge features -/

/-- The product of an edge row with the transposed edge weights, entry by entry. -/
private theorem v1_at (x2 : (⟨S800000x64, .f32⟩ : BufTy).Contents (Elt Ideal)) (x3 : (⟨S128x64, .f32⟩ : BufTy).Contents (Elt Ideal))
    (e : Fin 800000) (j : Fin 128) :
    val_main_v1 (F := Ideal) x2 x3 (ix2 e j) = ∑ k : Fin 64, x2 (ix2 e k) * x3 (ix2 j k) := by
  rw [val_main_v1_apply]
  refine Finset.sum_congr rfl fun k _ => ?_
  rw [val_main_v0_apply]
  have h1 : lidx_main_v1 (ix2 e j) k = ix2 e k :=
    funext fun a => match a with | ⟨0, _⟩ => rfl | ⟨1, _⟩ => rfl
  have h2 : idx_main_v0 (ridx_main_v1 (ix2 e j) k) = ix2 j k :=
    funext fun a => match a with | ⟨0, _⟩ => rfl | ⟨1, _⟩ => rfl
  rw [h1, h2]

/-- Its positive part. -/
private theorem v2_at (x2 : (⟨S800000x64, .f32⟩ : BufTy).Contents (Elt Ideal)) (x3 : (⟨S128x64, .f32⟩ : BufTy).Contents (Elt Ideal))
    (e : Fin 800000) (j : Fin 128) :
    val_main_v2 (F := Ideal) x2 x3 (ix2 e j) = max (∑ k : Fin 64, x2 (ix2 e k) * x3 (ix2 j k)) 0 := by
  rw [val_main_v2_apply, val_main_call0_v0_apply, val_main_call0_cst_apply, v1_at]
  simp only [Ideal.maximumf_def, Ideal.ofBits_def, Ideal.ofBits_zero_f32]

/-- The squared Euclidean norm of that row. -/
private theorem v4_at (x2 : (⟨S800000x64, .f32⟩ : BufTy).Contents (Elt Ideal)) (x3 : (⟨S128x64, .f32⟩ : BufTy).Contents (Elt Ideal))
    (e : Fin 800000) :
    val_main_v4 (F := Ideal) x2 x3 (ix1 e)
      = ∑ j : Fin 128, max (∑ k : Fin 64, x2 (ix2 e k) * x3 (ix2 j k)) 0 * max (∑ k : Fin 64, x2 (ix2 e k) * x3 (ix2 j k)) 0 := by
  rw [val_main_v4_apply, val_main_cst_apply]
  simp only [Ideal.ofBits_def, Ideal.ofBits_zero_f32, zero_add]
  refine Finset.sum_congr rfl fun j _ => ?_
  have h : idx_main_v4 (ix1 e) j = ix2 e j :=
    funext fun a => match a with | ⟨0, _⟩ => rfl | ⟨1, _⟩ => rfl
  rw [h, val_main_v3_apply, v2_at]
  simp only [Ideal.mulf_def]

/-- The norm of that row, a zero norm replaced by one. -/
private theorem v10_at (x2 : (⟨S800000x64, .f32⟩ : BufTy).Contents (Elt Ideal)) (x3 : (⟨S128x64, .f32⟩ : BufTy).Contents (Elt Ideal))
    (e : Fin 800000) :
    val_main_v10 (F := Ideal) x2 x3 (ix2 e (0 : Fin 1))
      = nz (Ideal.sqrt (∑ j : Fin 128, max (∑ k : Fin 64, x2 (ix2 e k) * x3 (ix2 j k)) 0 * max (∑ k : Fin 64, x2 (ix2 e k) * x3 (ix2 j k)) 0)) := by
  have h : idx_main_v5 (ix2 e (0 : Fin 1)) = ix1 e :=
    funext fun a => match a with | ⟨0, _⟩ => rfl
  rw [val_main_v10_apply, val_main_v8_apply, val_main_v9_apply, val_main_cst_1_apply, val_main_v7_apply,
    val_main_cst_0_apply, val_main_v6_apply, val_main_v5_apply, h, v4_at]
  simp only [Ideal.hostUnary_sqrt_def, Ideal.ofBits_def, Ideal.ofBits_zero_f32, Ideal.ofBits_one_f32]
  rfl

/-- The reference's edge features at edge e, column q. -/
theorem ref_edge (x2 : (⟨S800000x64, .f32⟩ : BufTy).Contents (Elt Ideal)) (x3 : (⟨S128x64, .f32⟩ : BufTy).Contents (Elt Ideal))
    (e : Fin 800000) (q : Fin 128) :
    val_main_v12 (F := Ideal) x2 x3 (ix2 e q) = edgeRow (row x2 e) (matT x3) q := by
  have h : idx_main_v11 (ix2 e q) = ix2 e (0 : Fin 1) :=
    funext fun a => match a with | ⟨0, _⟩ => rfl | ⟨1, _⟩ => rfl
  rw [val_main_v12_apply, val_main_v11_apply, h, v10_at, v2_at]
  simp only [Ideal.hostDivf_def]
  rfl

/-! ## The result -/

/-- The divisor of the mean: the degree, at least one, the same at every column. -/
private theorem v31_at (x8 : (⟨S800000, .i32⟩ : BufTy).Contents (Elt Ideal)) (n : Fin 50000) (c : Fin 256) :
    val_main_v31 (F := Ideal) x8 (ix2 n c) = max (val_main_v27 (F := Ideal) x8 (ix1 n)) 1 := by
  have h1 : idx_main_v31 (ix2 n c) = ix2 n (0 : Fin 1) :=
    funext fun a => match a with | ⟨0, _⟩ => rfl | ⟨1, _⟩ => rfl
  have h2 : idx_main_v30 (ix2 n (0 : Fin 1)) = ix1 n :=
    funext fun a => match a with | ⟨0, _⟩ => rfl
  rw [val_main_v31_apply, h1, val_main_v30_apply, h2, val_main_v29_apply, val_main_v28_apply, val_main_cst_6_apply]
  simp only [Ideal.maximumf_def, Ideal.ofBits_def, Ideal.ofBits_one_f32]

/-- The mean-aggregated message. -/
private theorem v32_at (x0 : (⟨S50000x128, .f32⟩ : BufTy).Contents (Elt Ideal)) (x2 : (⟨S800000x64, .f32⟩ : BufTy).Contents (Elt Ideal))
    (x3 : (⟨S128x64, .f32⟩ : BufTy).Contents (Elt Ideal)) (x7 x8 : (⟨S800000, .i32⟩ : BufTy).Contents (Elt Ideal)) (n : Fin 50000) (c : Fin 256) :
    val_main_v32 (F := Ideal) x0 x2 x3 x7 x8 (ix2 n c) = Ideal.div ((val_main_v23 (F := Ideal) x0 x2 x3 x7 x8) (ix2 n c)) (max (val_main_v27 (F := Ideal) x8 (ix1 n)) 1) := by
  rw [val_main_v32_apply, v31_at]
  simp only [Ideal.hostDivf_def]

/-- The remapped neighbourhood. -/
private theorem v35_at (x0 : (⟨S50000x128, .f32⟩ : BufTy).Contents (Elt Ideal)) (x2 : (⟨S800000x64, .f32⟩ : BufTy).Contents (Elt Ideal))
    (x3 : (⟨S128x64, .f32⟩ : BufTy).Contents (Elt Ideal)) (x4 : (⟨S128x256, .f32⟩ : BufTy).Contents (Elt Ideal)) (x7 x8 : (⟨S800000, .i32⟩ : BufTy).Contents (Elt Ideal)) (n : Fin 50000) (k : Fin 128) :
    val_main_v35 (F := Ideal) x0 x2 x3 x4 x7 x8 (ix2 n k) = (hnR (row (val_main_v23 (F := Ideal) x0 x2 x3 x7 x8) n) (val_main_v27 (F := Ideal) x8 (ix1 n)) (matT x4)) k := by
  rw [val_main_v35_apply, val_main_call2_v0_apply, val_main_call2_cst_apply, val_main_v34_apply]
  simp only [Ideal.maximumf_def, Ideal.ofBits_def, Ideal.ofBits_zero_f32]
  unfold hnR
  refine congrArg (max · 0) (Finset.sum_congr rfl fun i _ => ?_)
  have h1 : lidx_main_v34 (ix2 n k) i = ix2 n i :=
    funext fun a => match a with | ⟨0, _⟩ => rfl | ⟨1, _⟩ => rfl
  have h2 : idx_main_v33 (ridx_main_v34 (ix2 n k) i) = ix2 k i :=
    funext fun a => match a with | ⟨0, _⟩ => rfl | ⟨1, _⟩ => rfl
  rw [h1, val_main_v33_apply, h2, v32_at]
  rfl

/-- The node's own row through the transposed self weights. -/
private theorem v37_at (x1 : (⟨S50000x128, .f32⟩ : BufTy).Contents (Elt Ideal)) (x5 : (⟨S128x128, .f32⟩ : BufTy).Contents (Elt Ideal))
    (n : Fin 50000) (j : Fin 128) :
    val_main_v37 (F := Ideal) x1 x5 (ix2 n j) = ∑ k : Fin 128, x1 (ix2 n k) * x5 (ix2 j k) := by
  rw [val_main_v37_apply]
  refine Finset.sum_congr rfl fun k _ => ?_
  have h1 : lidx_main_v37 (ix2 n j) k = ix2 n k :=
    funext fun a => match a with | ⟨0, _⟩ => rfl | ⟨1, _⟩ => rfl
  have h2 : idx_main_v36 (ridx_main_v37 (ix2 n j) k) = ix2 j k :=
    funext fun a => match a with | ⟨0, _⟩ => rfl | ⟨1, _⟩ => rfl
  rw [h1, val_main_v36_apply, h2]

/-- The remapped neighbourhood through the transposed neighbour weights. -/
private theorem v39_at (x0 : (⟨S50000x128, .f32⟩ : BufTy).Contents (Elt Ideal)) (x2 : (⟨S800000x64, .f32⟩ : BufTy).Contents (Elt Ideal))
    (x3 : (⟨S128x64, .f32⟩ : BufTy).Contents (Elt Ideal)) (x4 : (⟨S128x256, .f32⟩ : BufTy).Contents (Elt Ideal)) (x6 : (⟨S128x128, .f32⟩ : BufTy).Contents (Elt Ideal)) (x7 x8 : (⟨S800000, .i32⟩ : BufTy).Contents (Elt Ideal)) (n : Fin 50000) (j : Fin 128) :
    val_main_v39 (F := Ideal) x0 x2 x3 x4 x6 x7 x8 (ix2 n j) = ∑ k : Fin 128, (hnR (row (val_main_v23 (F := Ideal) x0 x2 x3 x7 x8) n) (val_main_v27 (F := Ideal) x8 (ix1 n)) (matT x4)) k * x6 (ix2 j k) := by
  rw [val_main_v39_apply]
  refine Finset.sum_congr rfl fun k _ => ?_
  have h1 : lidx_main_v39 (ix2 n j) k = ix2 n k :=
    funext fun a => match a with | ⟨0, _⟩ => rfl | ⟨1, _⟩ => rfl
  have h2 : idx_main_v38 (ridx_main_v39 (ix2 n j) k) = ix2 j k :=
    funext fun a => match a with | ⟨0, _⟩ => rfl | ⟨1, _⟩ => rfl
  rw [h1, val_main_v38_apply, h2, v35_at]

/-- The positive part of their sum. -/
private theorem v41_at (x0 x1 : (⟨S50000x128, .f32⟩ : BufTy).Contents (Elt Ideal)) (x2 : (⟨S800000x64, .f32⟩ : BufTy).Contents (Elt Ideal))
    (x3 : (⟨S128x64, .f32⟩ : BufTy).Contents (Elt Ideal)) (x4 : (⟨S128x256, .f32⟩ : BufTy).Contents (Elt Ideal))
    (x5 x6 : (⟨S128x128, .f32⟩ : BufTy).Contents (Elt Ideal)) (x7 x8 : (⟨S800000, .i32⟩ : BufTy).Contents (Elt Ideal)) (n : Fin 50000) (j : Fin 128) :
    val_main_v41 (F := Ideal) x0 x1 x2 x3 x4 x5 x6 x7 x8 (ix2 n j) = max (∑ k : Fin 128, x1 (ix2 n k) * x5 (ix2 j k) + ∑ k : Fin 128, (hnR (row (val_main_v23 (F := Ideal) x0 x2 x3 x7 x8) n) (val_main_v27 (F := Ideal) x8 (ix1 n)) (matT x4)) k * x6 (ix2 j k)) 0 := by
  rw [val_main_v41_apply, val_main_call3_v0_apply, val_main_call3_cst_apply, val_main_v40_apply, v37_at, v39_at]
  simp only [Ideal.maximumf_def, Ideal.addf_def, Ideal.ofBits_def, Ideal.ofBits_zero_f32]

/-- The squared Euclidean norm of that row. -/
private theorem v43_at (x0 x1 : (⟨S50000x128, .f32⟩ : BufTy).Contents (Elt Ideal)) (x2 : (⟨S800000x64, .f32⟩ : BufTy).Contents (Elt Ideal))
    (x3 : (⟨S128x64, .f32⟩ : BufTy).Contents (Elt Ideal)) (x4 : (⟨S128x256, .f32⟩ : BufTy).Contents (Elt Ideal))
    (x5 x6 : (⟨S128x128, .f32⟩ : BufTy).Contents (Elt Ideal)) (x7 x8 : (⟨S800000, .i32⟩ : BufTy).Contents (Elt Ideal)) (n : Fin 50000) :
    val_main_v43 (F := Ideal) x0 x1 x2 x3 x4 x5 x6 x7 x8 (ix1 n)
      = ∑ j : Fin 128, (max (∑ k : Fin 128, x1 (ix2 n k) * x5 (ix2 j k) + ∑ k : Fin 128, (hnR (row (val_main_v23 (F := Ideal) x0 x2 x3 x7 x8) n) (val_main_v27 (F := Ideal) x8 (ix1 n)) (matT x4)) k * x6 (ix2 j k)) 0) * (max (∑ k : Fin 128, x1 (ix2 n k) * x5 (ix2 j k) + ∑ k : Fin 128, (hnR (row (val_main_v23 (F := Ideal) x0 x2 x3 x7 x8) n) (val_main_v27 (F := Ideal) x8 (ix1 n)) (matT x4)) k * x6 (ix2 j k)) 0) := by
  rw [val_main_v43_apply, val_main_cst_7_apply]
  simp only [Ideal.ofBits_def, Ideal.ofBits_zero_f32, zero_add]
  refine Finset.sum_congr rfl fun j _ => ?_
  have h : idx_main_v43 (ix1 n) j = ix2 n j :=
    funext fun a => match a with | ⟨0, _⟩ => rfl | ⟨1, _⟩ => rfl
  rw [h, val_main_v42_apply, v41_at]
  simp only [Ideal.mulf_def]

/-- The norm of that row, a zero norm replaced by one. -/
private theorem v49_at (x0 x1 : (⟨S50000x128, .f32⟩ : BufTy).Contents (Elt Ideal)) (x2 : (⟨S800000x64, .f32⟩ : BufTy).Contents (Elt Ideal))
    (x3 : (⟨S128x64, .f32⟩ : BufTy).Contents (Elt Ideal)) (x4 : (⟨S128x256, .f32⟩ : BufTy).Contents (Elt Ideal))
    (x5 x6 : (⟨S128x128, .f32⟩ : BufTy).Contents (Elt Ideal)) (x7 x8 : (⟨S800000, .i32⟩ : BufTy).Contents (Elt Ideal)) (n : Fin 50000) :
    val_main_v49 (F := Ideal) x0 x1 x2 x3 x4 x5 x6 x7 x8 (ix2 n (0 : Fin 1))
      = nz (Ideal.sqrt (∑ j : Fin 128, (max (∑ k : Fin 128, x1 (ix2 n k) * x5 (ix2 j k) + ∑ k : Fin 128, (hnR (row (val_main_v23 (F := Ideal) x0 x2 x3 x7 x8) n) (val_main_v27 (F := Ideal) x8 (ix1 n)) (matT x4)) k * x6 (ix2 j k)) 0) * (max (∑ k : Fin 128, x1 (ix2 n k) * x5 (ix2 j k) + ∑ k : Fin 128, (hnR (row (val_main_v23 (F := Ideal) x0 x2 x3 x7 x8) n) (val_main_v27 (F := Ideal) x8 (ix1 n)) (matT x4)) k * x6 (ix2 j k)) 0))) := by
  have h : idx_main_v44 (ix2 n (0 : Fin 1)) = ix1 n :=
    funext fun a => match a with | ⟨0, _⟩ => rfl
  rw [val_main_v49_apply, val_main_v47_apply, val_main_v48_apply, val_main_cst_9_apply, val_main_v46_apply,
    val_main_cst_8_apply, val_main_v45_apply, val_main_v44_apply, h, v43_at]
  simp only [Ideal.hostUnary_sqrt_def, Ideal.ofBits_def, Ideal.ofBits_zero_f32, Ideal.ofBits_one_f32]
  rfl

/-- The reference's result at node n, column q, over its aggregated message and its degree. -/
theorem ref_out (x0 x1 : (⟨S50000x128, .f32⟩ : BufTy).Contents (Elt Ideal)) (x2 : (⟨S800000x64, .f32⟩ : BufTy).Contents (Elt Ideal))
    (x3 : (⟨S128x64, .f32⟩ : BufTy).Contents (Elt Ideal)) (x4 : (⟨S128x256, .f32⟩ : BufTy).Contents (Elt Ideal))
    (x5 x6 : (⟨S128x128, .f32⟩ : BufTy).Contents (Elt Ideal)) (x7 x8 : (⟨S800000, .i32⟩ : BufTy).Contents (Elt Ideal))
    (n : Fin 50000) (q : Fin 128) :
    val_main_v51 (F := Ideal) x0 x1 x2 x3 x4 x5 x6 x7 x8 (ix2 n q)
      = outRow (row x1 n) (hnR (row (val_main_v23 (F := Ideal) x0 x2 x3 x7 x8) n) (val_main_v27 (F := Ideal) x8 (ix1 n)) (matT x4))
          (matT x5) (matT x6) q := by
  have h : idx_main_v50 (ix2 n q) = ix2 n (0 : Fin 1) :=
    funext fun a => match a with | ⟨0, _⟩ => rfl | ⟨1, _⟩ => rfl
  rw [val_main_v51_apply, val_main_v50_apply, h, v49_at, v41_at]
  simp only [Ideal.hostDivf_def]
  rfl

/-! ## The two scatter-adds -/

/-- The scatter indices are the destination column. -/
private theorem v22_at (x8 : (⟨S800000, .i32⟩ : BufTy).Contents (Elt Ideal)) (e : Fin 800000) :
    val_main_v22 (F := Ideal) x8 (ix2 e (0 : Fin 1)) = x8 (ix1 e) :=
  (val_main_v22_apply x8 _).trans (congrArg x8 (funext fun a => match a with | ⟨0, _⟩ => rfl))

private theorem v26_at (x8 : (⟨S800000, .i32⟩ : BufTy).Contents (Elt Ideal)) (e : Fin 800000) :
    val_main_v26 (F := Ideal) x8 (ix2 e (0 : Fin 1)) = x8 (ix1 e) :=
  (val_main_v26_apply x8 _).trans (congrArg x8 (funext fun a => match a with | ⟨0, _⟩ => rfl))

/-- The message row of an edge: its first 128 columns are the gathered source row. -/
private theorem v20_left (x0 : (⟨S50000x128, .f32⟩ : BufTy).Contents (Elt Ideal)) (x2 : (⟨S800000x64, .f32⟩ : BufTy).Contents (Elt Ideal))
    (x3 : (⟨S128x64, .f32⟩ : BufTy).Contents (Elt Ideal)) (x7 : (⟨S800000, .i32⟩ : BufTy).Contents (Elt Ideal)) (e : Fin 800000) (k : Fin 128) :
    val_main_v20 (F := Ideal) x0 x2 x3 x7 (ix2 e ⟨k.val, by omega⟩) = val_main_v19 (F := Ideal) x0 x7 (ix2 e k) := by
  unfold val_main_v20
  refine concatenate_pair_apply_left (t := S800000x256) (s₁ := S800000x128) (s₂ := S800000x128) 1 _ _ _
    (ix2 e (⟨k.val, by omega⟩ : Fin 256)) rfl (ix2 e k) ?_
  intro b
  match b with
  | ⟨0, _⟩ => rfl
  | ⟨1, _⟩ => rfl

/-- The message row of an edge: its last 128 columns are the edge features. -/
private theorem v20_right (x0 : (⟨S50000x128, .f32⟩ : BufTy).Contents (Elt Ideal)) (x2 : (⟨S800000x64, .f32⟩ : BufTy).Contents (Elt Ideal))
    (x3 : (⟨S128x64, .f32⟩ : BufTy).Contents (Elt Ideal)) (x7 : (⟨S800000, .i32⟩ : BufTy).Contents (Elt Ideal)) (e : Fin 800000) (k : Fin 128) :
    val_main_v20 (F := Ideal) x0 x2 x3 x7 (ix2 e ⟨128 + k.val, by omega⟩) = val_main_v12 (F := Ideal) x2 x3 (ix2 e k) := by
  unfold val_main_v20
  refine concatenate_pair_apply_right (t := S800000x256) (s₁ := S800000x128) (s₂ := S800000x128) 1 _ _ _
    (ix2 e (⟨128 + k.val, by omega⟩ : Fin 256)) rfl rfl (ix2 e k) ?_ ?_
  · intro b hb
    match b, hb with
    | ⟨0, _⟩, _ => rfl
    | ⟨1, _⟩, hb => exact absurd rfl hb
  · show k.val + 128 = 128 + k.val
    omega

/-- The row scatter's dimension numbers are those of a row scatter-add into 50000 rows of width 256. -/
private theorem rec2_eq :
    scatter_S50000x256_S800000x1_S800000x256_1_0_0_1 = Cert.Lib.RowOps.scat2 50000 256 800000 Facts₀.scatter_S50000x256_S800000x1_S800000x256_1_0_0_1_wf := rfl

/-- The entry scatter's dimension numbers are those of a scatter-add into 50000 entries. -/
private theorem rec1_eq :
    scatter_S50000_S800000x1_S800000_n_0_0_1 = Cert.Lib.RowOps.scat1 50000 800000 Facts₀.scatter_S50000_S800000x1_S800000_n_0_0_1_wf := rfl

/-- The aggregated message as one scatter-add of the message rows into the zero array. -/
private theorem v23_fn (x0 : (⟨S50000x128, .f32⟩ : BufTy).Contents (Elt Ideal)) (x2 : (⟨S800000x64, .f32⟩ : BufTy).Contents (Elt Ideal))
    (x3 : (⟨S128x64, .f32⟩ : BufTy).Contents (Elt Ideal)) (x7 x8 : (⟨S800000, .i32⟩ : BufTy).Contents (Elt Ideal)) :
    val_main_v23 (F := Ideal) x0 x2 x3 x7 x8
      = Ideal.hostScatterAdd (Cert.Lib.RowOps.scat2 50000 256 800000 Facts₀.scatter_S50000x256_S800000x1_S800000x256_1_0_0_1_wf)
          (val_main_v21 (F := Ideal)) (val_main_v22 (F := Ideal) x8) (val_main_v20 (F := Ideal) x0 x2 x3 x7) := by
  unfold val_main_v23 Host.scatterAdd
  rw [Ideal.hostScatterAdd_def, rec2_eq]

/-- The degree as one scatter-add of ones into the zero vector. -/
private theorem v27_fn (x8 : (⟨S800000, .i32⟩ : BufTy).Contents (Elt Ideal)) :
    val_main_v27 (F := Ideal) x8
      = Ideal.hostScatterAdd (Cert.Lib.RowOps.scat1 50000 800000 Facts₀.scatter_S50000_S800000x1_S800000_n_0_0_1_wf)
          (val_main_v25 (F := Ideal)) (val_main_v26 (F := Ideal) x8) (val_main_v24 (F := Ideal)) := by
  unfold val_main_v27 Host.scatterAdd
  rw [Ideal.hostScatterAdd_def, rec1_eq]

/-- The aggregated message at any column: the zero operand plus the sum of the message rows of the edges into n. -/
private theorem v23_at (x0 : (⟨S50000x128, .f32⟩ : BufTy).Contents (Elt Ideal)) (x2 : (⟨S800000x64, .f32⟩ : BufTy).Contents (Elt Ideal))
    (x3 : (⟨S128x64, .f32⟩ : BufTy).Contents (Elt Ideal)) (x7 x8 : (⟨S800000, .i32⟩ : BufTy).Contents (Elt Ideal)) (n : Fin 50000) (c : Fin 256) :
    val_main_v23 (F := Ideal) x0 x2 x3 x7 x8 (ix2 n c)
      = 0 + ∑ e ∈ Finset.univ.filter (fun e : Fin 800000 => (x8 (ix1 e)).toInt = (n.val : Int)),
          val_main_v20 (F := Ideal) x0 x2 x3 x7 (ix2 e c) := by
  refine (congrFun (v23_fn x0 x2 x3 x7 x8) (ix2 n c)).trans
    ((Cert.Lib.RowOps.scat2_apply Facts₀.scatter_S50000x256_S800000x1_S800000x256_1_0_0_1_wf (val_main_v21 (F := Ideal)) (val_main_v22 (F := Ideal) x8)
      (val_main_v20 (F := Ideal) x0 x2 x3 x7) n c).trans ?_)
  rw [val_main_v21_apply, val_main_cst_3_apply]
  simp only [v22_at, Ideal.ofBits_def, Ideal.ofBits_zero_f32]

/-- The aggregated message at node n: columns below 128 sum the gathered source rows, the others the edge features,
    over the edges whose destination index, read signed, is n. -/
theorem ref_agg (x0 : (⟨S50000x128, .f32⟩ : BufTy).Contents (Elt Ideal)) (x2 : (⟨S800000x64, .f32⟩ : BufTy).Contents (Elt Ideal))
    (x3 : (⟨S128x64, .f32⟩ : BufTy).Contents (Elt Ideal)) (x7 x8 : (⟨S800000, .i32⟩ : BufTy).Contents (Elt Ideal))
    (n : Fin 50000) (k : Fin 128) :
    val_main_v23 (F := Ideal) x0 x2 x3 x7 x8 (ix2 n ⟨k.val, by omega⟩)
        = 0 + ∑ e ∈ Finset.univ.filter (fun e : Fin 800000 => (x8 (ix1 e)).toInt = (n.val : Int)), val_main_v19 (F := Ideal) x0 x7 (ix2 e k)
    ∧ val_main_v23 (F := Ideal) x0 x2 x3 x7 x8 (ix2 n ⟨128 + k.val, by omega⟩)
        = 0 + ∑ e ∈ Finset.univ.filter (fun e : Fin 800000 => (x8 (ix1 e)).toInt = (n.val : Int)), val_main_v12 (F := Ideal) x2 x3 (ix2 e k) := by
  refine ⟨?_, ?_⟩
  · rw [v23_at]
    simp only [v20_left]
  · rw [v23_at]
    simp only [v20_right]

/-- The degree of node n: the number of edges whose destination index, read signed, is n. -/
theorem ref_deg (x8 : (⟨S800000, .i32⟩ : BufTy).Contents (Elt Ideal)) (n : Fin 50000) :
    val_main_v27 (F := Ideal) x8 (ix1 n)
      = 0 + ∑ _e ∈ Finset.univ.filter (fun e : Fin 800000 => (x8 (ix1 e)).toInt = (n.val : Int)), (1 : EReal) := by
  refine (congrFun (v27_fn x8) (ix1 n)).trans
    ((Cert.Lib.RowOps.scat1_apply Facts₀.scatter_S50000_S800000x1_S800000_n_0_0_1_wf (val_main_v25 (F := Ideal)) (val_main_v26 (F := Ideal) x8)
      (val_main_v24 (F := Ideal)) n).trans ?_)
  rw [val_main_v25_apply, val_main_cst_5_apply]
  simp only [v26_at, val_main_v24_apply, val_main_cst_4_apply, Ideal.ofBits_def, Ideal.ofBits_zero_f32, Ideal.ofBits_one_f32]

end Cert.RefValue

end
-- ==== Proof.Law.lean ====
import proofs.«176896_j35304631173416_1_alg».proof.Proof.Spec
import Mathlib.Data.EReal.Operations
import Mathlib.Algebra.BigOperators.Fin

noncomputable section

namespace Cert.Law

open Idealize.ShloMosaic Cert.Spec

/-- A finite sum of coercions of reals is the coercion of the real sum. -/
private theorem coe_sum {ι : Type} (s : Finset ι) (f : ι → ℝ) :
    (∑ i ∈ s, ((f i : ℝ) : EReal)) = ((∑ i ∈ s, f i : ℝ) : EReal) := by
  classical
  refine Finset.induction_on s ?_ ?_
  · simp
  · intro a t ha ih
    rw [Finset.sum_insert ha, Finset.sum_insert ha, ih, EReal.coe_add]

/-- A count of edges is not +∞. -/
theorem count_ne_top {ι : Type} (s : Finset ι) : (0 + ∑ _e ∈ s, (1 : EReal)) ≠ ⊤ := by
  have h : (∑ _e ∈ s, (1 : EReal)) = ((∑ _e ∈ s, (1 : ℝ) : ℝ) : EReal) := by
    rw [← coe_sum]; rfl
  rw [zero_add, h]
  exact EReal.coe_ne_top _

/-- The product with the coercion of a nonnegative real distributes over a finite sum: no finiteness of
    the summands is needed, since such a factor sends no two summands to opposite infinities that were
    not opposite already. -/
private theorem sum_mul_coe {ι : Type} (s : Finset ι) (f : ι → EReal) {r : ℝ} (hr : 0 ≤ r) :
    (∑ i ∈ s, f i) * (r : EReal) = ∑ i ∈ s, f i * (r : EReal) := by
  classical
  have h0 : (0 : EReal) ≤ (r : EReal) := by exact_mod_cast hr
  refine Finset.induction_on s ?_ ?_
  · simp
  · intro a t ha ih
    rw [Finset.sum_insert ha, Finset.sum_insert ha,
      EReal.right_distrib_of_nonneg_of_ne_top h0 (EReal.coe_ne_top r), ih]

/-- The sum over 256 = 128 + 128 indices is the sum over the first 128 plus the sum over the last 128. -/
private theorem sum_split (f : Fin 256 → EReal) :
    ∑ i, f i = ∑ i : Fin 128, f ⟨i.val, by omega⟩ + ∑ i : Fin 128, f ⟨128 + i.val, by omega⟩ :=
  Fin.sum_univ_add (a := 128) (b := 128) f

/-- The maximum of an extended real other than +∞ with one is a real number, and it is positive. -/
private theorem max_one_real {d : EReal} (hd : d ≠ ⊤) : ∃ y : ℝ, 0 < y ∧ max d 1 = (y : EReal) := by
  induction d using EReal.rec with
  | bot => exact ⟨1, one_pos, by simp⟩
  | coe r =>
    refine ⟨max r 1, lt_of_lt_of_le one_pos (le_max_right r 1), ?_⟩
    rcases le_total r 1 with h | h
    · have h' : (r : EReal) ≤ 1 := by exact_mod_cast h
      rw [max_eq_right h, max_eq_right h']; rfl
    · have h' : (1 : EReal) ≤ (r : EReal) := by exact_mod_cast h
      rw [max_eq_left h, max_eq_left h']
  | top => exact absurd rfl hd

/-- Dividing by a positive real commutes with the remap product, and the sum over the 256 joined columns splits into
    its two halves: the kernel's and the reference's remapped neighbourhoods agree. -/
theorem hn_law (a1 a2 : Fin 128 → EReal) (agg : Fin 256 → EReal) (d : EReal) (hd : d ≠ ⊤)
    (w1 w2 : Fin 128 → Fin 128 → EReal) (w : Fin 256 → Fin 128 → EReal)
    (ha1 : ∀ i : Fin 128, agg ⟨i.val, by omega⟩ = a1 i) (ha2 : ∀ i : Fin 128, agg ⟨128 + i.val, by omega⟩ = a2 i)
    (hw1 : ∀ (i : Fin 128) k, w ⟨i.val, by omega⟩ k = w1 i k) (hw2 : ∀ (i : Fin 128) k, w ⟨128 + i.val, by omega⟩ k = w2 i k) :
    hnK a1 a2 d w1 w2 = hnR agg d w := by
  obtain ⟨y, hy, hc⟩ := max_one_real hd
  have hr : (0 : ℝ) ≤ 1 / y := by positivity
  have h0 : (0 : EReal) ≤ ((1 / y : ℝ) : EReal) := by exact_mod_cast hr
  funext k
  unfold hnK hnR
  refine congrArg (max · 0) ?_
  rw [hc, Ideal.div_coe hy.ne']
  simp only [Ideal.div_coe hy.ne']
  rw [EReal.right_distrib_of_nonneg_of_ne_top h0 (EReal.coe_ne_top _), sum_mul_coe _ _ hr, sum_mul_coe _ _ hr,
    sum_split]
  congr 1
  · refine Finset.sum_congr rfl fun i _ => ?_
    rw [ha1, hw1, mul_right_comm]
  · refine Finset.sum_congr rfl fun i _ => ?_
    rw [ha2, hw2, mul_right_comm]

end Cert.Law

end
-- ==== Proof.KOut.lean ====
import proofs.«176896_j35304631173416_1_alg».proof.Proof.Gen.ReferenceIdeal.Read
import proofs.«176896_j35304631173416_1_alg».proof.Proof.KHost
import proofs.«176896_j35304631173416_1_alg».proof.Proof.RefValue
import proofs.«176896_j35304631173416_1_alg».proof.Proof.KPay
import proofs.«176896_j35304631173416_1_alg».proof.Proof.Spec
import proofs.«176896_j35304631173416_1_alg».proof.Proof.Law
import proofs.«176896_j35304631173416_1_alg».proof.Proof.LibRowOps
import Idealize.ShloMosaic.Lib.ValueIdx
import Idealize.ShloMosaic.Lib.Pipeline.Value
import Idealize.ShloMosaic.Lib.IdealHost
import Idealize.ShloMosaic.PureOps.Ideal.Laws

noncomputable section

namespace Cert.KOut

open Idealize.ShloMosaic Idealize.ShloMosaic.ValueIdx Cert.Spec Cert.KernelIdeal.KHost Cert.Lib.RowOps
open Cert.ReferenceIdeal.Read Cert.RefValue

open Cert.KernelIdeal Cert.KernelIdeal.Gen

/-- The kernel program's result as a function of its nine arguments: each node row of the aggregated halves, the degree
    column, h_self and the transposed weights through the node row function. -/
def kout (x0 x1 : (⟨S50000x128, .f32⟩ : BufTy).Contents (Elt Ideal)) (x2 : (⟨S800000x64, .f32⟩ : BufTy).Contents (Elt Ideal))
    (x3 : (⟨S128x64, .f32⟩ : BufTy).Contents (Elt Ideal)) (x4 : (⟨S128x256, .f32⟩ : BufTy).Contents (Elt Ideal))
    (x5 x6 : (⟨S128x128, .f32⟩ : BufTy).Contents (Elt Ideal)) (x7 x8 : (⟨S800000, .i32⟩ : BufTy).Contents (Elt Ideal)) :
    (⟨S50000x128, .f32⟩ : BufTy).Contents (Elt Ideal) :=
  fuseArr (segsum (hsrc x0 x7) x8)
    (segsum (edgeArr x2 (transpose S64x128 [1, 0] x3 transposes_S128x64_S64x128_1_0)) x8)
    (degcol x8) x1
    (transpose S128x128 [1, 0] (extractStridedSlice S128x128 ![0, 0] x4 slices_S128x256_S128x128_0_0) transposes_S128x128_S128x128_1_0)
    (transpose S128x128 [1, 0] (extractStridedSlice S128x128 ![0, 128] x4 slices_S128x256_S128x128_0_128) transposes_S128x128_S128x128_1_0)
    (transpose S128x128 [1, 0] x5 transposes_S128x128_S128x128_1_0)
    (transpose S128x128 [1, 0] x6 transposes_S128x128_S128x128_1_0)

/-! ## The scatter-adds and layout operations read at an index -/

theorem rec_eq : scatter_S50000x128_S800000x1_S800000x128_1_0_0_1
    = scat2 50000 128 800000 scatter_S50000x128_S800000x1_S800000x128_1_0_0_1_wf := rfl

/-- The row scatter-add of the kernel's program is the library's row scatter-add of the same operands. -/
theorem segsum_eq (u : (⟨S800000x128, .f32⟩ : BufTy).Contents (Elt Ideal)) (x8 : (⟨S800000, .i32⟩ : BufTy).Contents (Elt Ideal)) :
    segsum u x8 = Ideal.hostScatterAdd (scat2 50000 128 800000 scatter_S50000x128_S800000x1_S800000x128_1_0_0_1_wf)
      (broadcastInDim S50000x128 ![] bcast_S_S50000x128 (constant (F := Ideal) S_ .f32 0x00000000#32)) (dstIdx x8) u := by
  unfold segsum Host.scatterAdd
  rw [Ideal.hostScatterAdd_def, rec_eq]

/-- The destination column at edge e is the edge's destination index. -/
theorem dstIdx_apply (x8 : (⟨S800000, .i32⟩ : BufTy).Contents (Elt Ideal)) (e : Fin 800000) :
    dstIdx x8 (ix2 e (0 : Fin 1)) = x8 (ix1 e) := by
  unfold dstIdx
  exact broadcastInDim_apply _ bcast_S800000_S800000x1_0 x8 (ix2 e 0) (ix1 e) (fun a => match a with
    | ⟨0, _⟩ => by show e.val = if (800000 : Nat) = 1 then 0 else e.val; rw [if_neg (by decide)])

/-- The zero array the sums start from. -/
theorem zeros_apply (i : S50000x128.Idx) :
    broadcastInDim S50000x128 ![] bcast_S_S50000x128 (constant (F := Ideal) S_ .f32 0x00000000#32) i = 0 := by
  rw [broadcastInDim_apply _ bcast_S_S50000x128 _ i ix0 (fun a => a.elim0)]
  exact Ideal.ofBits_zero_f32

/-- Rows summed by destination node, read at a node and a column: the sum, over the edges whose destination index read
    signed is the node, of the update's entry in that column. -/
theorem segsum_apply (u : (⟨S800000x128, .f32⟩ : BufTy).Contents (Elt Ideal)) (x8 : (⟨S800000, .i32⟩ : BufTy).Contents (Elt Ideal))
    (n : Fin 50000) (k : Fin 128) :
    segsum u x8 (ix2 n k)
      = 0 + ∑ e ∈ Finset.univ.filter (fun e : Fin 800000 => (x8 (ix1 e)).toInt = (n.val : Int)), u (ix2 e k) := by
  refine (congrFun (segsum_eq u x8) (ix2 n k)).trans ?_
  refine (scat2_apply (N := 50000) (D := 128) (E := 800000) (w := 32)
    scatter_S50000x128_S800000x1_S800000x128_1_0_0_1_wf
    (broadcastInDim S50000x128 ![] bcast_S_S50000x128 (constant (F := Ideal) S_ .f32 0x00000000#32)) (dstIdx x8) u n k).trans ?_
  rw [zeros_apply]
  refine congrArg (0 + ·) (Finset.sum_congr (Finset.filter_congr fun e _ => ?_) fun e _ => rfl)
  rw [dstIdx_apply]

/-- A transposed square matrix read by coordinates. -/
theorem mat_transpose (x : (⟨S128x128, .f32⟩ : BufTy).Contents (Elt Ideal)) :
    mat (transpose S128x128 [1, 0] x transposes_S128x128_S128x128_1_0) = matT x := by
  funext k j
  unfold mat matT
  exact transpose_apply [1, 0] x transposes_S128x128_S128x128_1_0 (ix2 k j) (ix2 j k) (fun b => match b with
    | ⟨0, _⟩ => rfl
    | ⟨1, _⟩ => rfl)

/-- The transposed edge weights read by coordinates. -/
theorem mat_transpose3 (x : (⟨S128x64, .f32⟩ : BufTy).Contents (Elt Ideal)) :
    mat (transpose S64x128 [1, 0] x transposes_S128x64_S64x128_1_0) = matT x := by
  funext k j
  unfold mat matT
  exact transpose_apply [1, 0] x transposes_S128x64_S64x128_1_0 (ix2 k j) (ix2 j k) (fun b => match b with
    | ⟨0, _⟩ => rfl
    | ⟨1, _⟩ => rfl)

/-- The first block of the remap weights, transposed, read by coordinates. -/
theorem mat_w1 (x4 : (⟨S128x256, .f32⟩ : BufTy).Contents (Elt Ideal)) (i k : Fin 128) :
    mat (transpose S128x128 [1, 0] (extractStridedSlice S128x128 ![0, 0] x4 slices_S128x256_S128x128_0_0) transposes_S128x128_S128x128_1_0) i k
      = x4 (ix2 k ⟨i.val, by omega⟩) := by
  unfold mat
  rw [transpose_apply [1, 0] _ transposes_S128x128_S128x128_1_0 (ix2 i k) (ix2 k i) (fun b => match b with
    | ⟨0, _⟩ => rfl
    | ⟨1, _⟩ => rfl)]
  exact extractStridedSlice_apply ![0, 0] x4 slices_S128x256_S128x128_0_0 (ix2 k i) (ix2 k ⟨i.val, by omega⟩) (fun a => match a with
    | ⟨0, _⟩ => by show k.val = 0 + k.val; omega
    | ⟨1, _⟩ => by show i.val = 0 + i.val; omega)

/-- The second block of the remap weights, transposed, read by coordinates. -/
theorem mat_w2 (x4 : (⟨S128x256, .f32⟩ : BufTy).Contents (Elt Ideal)) (i k : Fin 128) :
    mat (transpose S128x128 [1, 0] (extractStridedSlice S128x128 ![0, 128] x4 slices_S128x256_S128x128_0_128) transposes_S128x128_S128x128_1_0) i k
      = x4 (ix2 k ⟨128 + i.val, by omega⟩) := by
  unfold mat
  rw [transpose_apply [1, 0] _ transposes_S128x128_S128x128_1_0 (ix2 i k) (ix2 k i) (fun b => match b with
    | ⟨0, _⟩ => rfl
    | ⟨1, _⟩ => rfl)]
  exact extractStridedSlice_apply ![0, 128] x4 slices_S128x256_S128x128_0_128 (ix2 k i) (ix2 k ⟨128 + i.val, by omega⟩) (fun a => match a with
    | ⟨0, _⟩ => by show k.val = 0 + k.val; omega
    | ⟨1, _⟩ => by show 128 + i.val = 128 + i.val; rfl)

/-! ## The two programs' gathers and degree counts are the same terms -/

/-- The gathered source rows are the reference's. -/
theorem hsrc_eq (x0 : (⟨S50000x128, .f32⟩ : BufTy).Contents (Elt Ideal)) (x7 : (⟨S800000, .i32⟩ : BufTy).Contents (Elt Ideal)) :
    hsrc x0 x7 = val_main_v19 (F := Ideal) x0 x7 := rfl

/-- The degree vector under the kernel's column cast is the reference's. -/
theorem degvec_eq (x8 : (⟨S800000, .i32⟩ : BufTy).Contents (Elt Ideal)) :
    Host.scatterAdd (F := Ideal) scatter_S50000_S800000x1_S800000_n_0_0_1
      (broadcastInDim S50000 ![] bcast_S_S50000 (constant (F := Ideal) S_ .f32 0x00000000#32)) (dstIdx x8)
      (broadcastInDim S800000 ![] bcast_S_S800000 (constant (F := Ideal) S_ .f32 0x3F800000#32))
      = val_main_v27 (F := Ideal) x8 := rfl

/-- The degree column at node n is the reference's degree of n. -/
theorem degcol_apply (x8 : (⟨S800000, .i32⟩ : BufTy).Contents (Elt Ideal)) (n : Fin 50000) :
    degcol x8 (ix2 n (0 : Fin 1)) = val_main_v27 (F := Ideal) x8 (ix1 n) := by
  unfold degcol
  rw [Cert.KernelIdeal.KPay.col_apply]
  exact congrFun (degvec_eq x8) (ix1 n)

/-! ## The node rows and edge rows of whole arrays -/

theorem fuseArr_ix2 (A1 A2 : (⟨2, ![50000, 128]⟩ : Shape).Idx → EReal) (Dg : (⟨2, ![50000, 1]⟩ : Shape).Idx → EReal)
    (H : (⟨2, ![50000, 128]⟩ : Shape).Idx → EReal) (W1 W2 Ws Wn : (⟨2, ![128, 128]⟩ : Shape).Idx → EReal) (n : Fin 50000) (q : Fin 128) :
    fuseArr A1 A2 Dg H W1 W2 Ws Wn (ix2 n q)
      = outRow (row H n) (hnK (row A1 n) (row A2 n) (Dg (ix2 n 0)) (mat W1) (mat W2)) (mat Ws) (mat Wn) q := rfl

theorem edgeArr_ix2 (X : (⟨2, ![800000, 64]⟩ : Shape).Idx → EReal) (W : (⟨2, ![64, 128]⟩ : Shape).Idx → EReal) (e : Fin 800000) (q : Fin 128) :
    edgeArr X W (ix2 e q) = edgeRow (row X e) (mat W) q := rfl

/-! ## The kernel program's function is the reference's -/

/-- Node by node: the same h_self row and weights; the degree and the gathered rows are the same terms; the edge features
    agree row by row; and the remapped neighbourhoods agree because dividing the aggregated message by the positive
    real max d 1 commutes with the remap product, the 256 joined columns splitting into the two halves. -/
theorem kout_eq (x0 x1 : (⟨S50000x128, .f32⟩ : BufTy).Contents (Elt Ideal)) (x2 : (⟨S800000x64, .f32⟩ : BufTy).Contents (Elt Ideal))
    (x3 : (⟨S128x64, .f32⟩ : BufTy).Contents (Elt Ideal)) (x4 : (⟨S128x256, .f32⟩ : BufTy).Contents (Elt Ideal))
    (x5 x6 : (⟨S128x128, .f32⟩ : BufTy).Contents (Elt Ideal)) (x7 x8 : (⟨S800000, .i32⟩ : BufTy).Contents (Elt Ideal)) :
    kout x0 x1 x2 x3 x4 x5 x6 x7 x8 = val_main_v51 (F := Ideal) x0 x1 x2 x3 x4 x5 x6 x7 x8 := by
  funext i
  obtain ⟨n, q, rfl⟩ : ∃ (n : Fin 50000) (q : Fin 128), i = ix2 n q := ⟨i 0, i 1, eq_ix2 i⟩
  rw [ref_out]
  unfold kout
  rw [fuseArr_ix2, mat_transpose x5, mat_transpose x6, degcol_apply]
  refine congrArg (fun hn => outRow (row x1 n) hn (matT x5) (matT x6) q) ?_
  refine Cert.Law.hn_law _ _ _ _ ?_ _ _ _ (fun i => ?_) (fun i => ?_) (fun i k => ?_) (fun i k => ?_)
  · rw [ref_deg]
    exact Cert.Law.count_ne_top _
  · unfold row
    rw [(ref_agg x0 x2 x3 x7 x8 n i).1, segsum_apply, hsrc_eq]
  · unfold row
    rw [(ref_agg x0 x2 x3 x7 x8 n i).2, segsum_apply]
    refine congrArg (0 + ·) (Finset.sum_congr rfl fun e _ => ?_)
    rw [ref_edge, edgeArr_ix2, mat_transpose3]
  · unfold matT
    rw [mat_w1]
  · unfold matT
    rw [mat_w2]

end Cert.KOut

end
-- ==== Proof.KernelValue.lean ====
import proofs.«176896_j35304631173416_1_alg».proof.Proof.Gen.KernelIdeal.Frame
import proofs.«176896_j35304631173416_1_alg».proof.Proof.KVal0
import proofs.«176896_j35304631173416_1_alg».proof.Proof.KVal1
import proofs.«176896_j35304631173416_1_alg».proof.Proof.KHost
import proofs.«176896_j35304631173416_1_alg».proof.Proof.KOut
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.KHost Cert.Spec

variable (m : (ℓ : Loc nD τ sig) → Buf (Elt Ideal) ℓ) (ρ : Dev nD → PrngReg)

section
variable (Wv : Valuation τ sig (Elt Ideal))
/-- The one host operation before the edge kernel writes none of the arguments. -/
theorem after0_arg0 : StableHlo.after (hostOps0 (F := Ideal)) Wv (Proc.devRef .tc main_arg0) = Wv (Proc.devRef .tc main_arg0) := by after_results
theorem after0_arg1 : StableHlo.after (hostOps0 (F := Ideal)) Wv (Proc.devRef .tc main_arg1) = Wv (Proc.devRef .tc main_arg1) := by after_results
theorem after0_arg4 : StableHlo.after (hostOps0 (F := Ideal)) Wv (Proc.devRef .tc main_arg4) = Wv (Proc.devRef .tc main_arg4) := by after_results
theorem after0_arg5 : StableHlo.after (hostOps0 (F := Ideal)) Wv (Proc.devRef .tc main_arg5) = Wv (Proc.devRef .tc main_arg5) := by after_results
theorem after0_arg6 : StableHlo.after (hostOps0 (F := Ideal)) Wv (Proc.devRef .tc main_arg6) = Wv (Proc.devRef .tc main_arg6) := by after_results
theorem after0_arg7 : StableHlo.after (hostOps0 (F := Ideal)) Wv (Proc.devRef .tc main_arg7) = Wv (Proc.devRef .tc main_arg7) := by after_results
theorem after0_arg8 : StableHlo.after (hostOps0 (F := Ideal)) Wv (Proc.devRef .tc main_arg8) = Wv (Proc.devRef .tc main_arg8) := by after_results
end

/-! The arguments as the node kernel's host stretch finds them: as launched -/

theorem W2_arg0 (c : Dev nD) : W2 m ρ c (Proc.devRef .tc main_arg0) = m ((c : Thread nD τ).loc main_arg0) :=
  (W2_of_ne m ρ c main_arg0 (by decide)).trans (after0_arg0 (W0 m ρ c))
theorem W2_arg1 (c : Dev nD) : W2 m ρ c (Proc.devRef .tc main_arg1) = m ((c : Thread nD τ).loc main_arg1) :=
  (W2_of_ne m ρ c main_arg1 (by decide)).trans (after0_arg1 (W0 m ρ c))
theorem W2_arg4 (c : Dev nD) : W2 m ρ c (Proc.devRef .tc main_arg4) = m ((c : Thread nD τ).loc main_arg4) :=
  (W2_of_ne m ρ c main_arg4 (by decide)).trans (after0_arg4 (W0 m ρ c))
theorem W2_arg5 (c : Dev nD) : W2 m ρ c (Proc.devRef .tc main_arg5) = m ((c : Thread nD τ).loc main_arg5) :=
  (W2_of_ne m ρ c main_arg5 (by decide)).trans (after0_arg5 (W0 m ρ c))
theorem W2_arg6 (c : Dev nD) : W2 m ρ c (Proc.devRef .tc main_arg6) = m ((c : Thread nD τ).loc main_arg6) :=
  (W2_of_ne m ρ c main_arg6 (by decide)).trans (after0_arg6 (W0 m ρ c))
theorem W2_arg7 (c : Dev nD) : W2 m ρ c (Proc.devRef .tc main_arg7) = m ((c : Thread nD τ).loc main_arg7) :=
  (W2_of_ne m ρ c main_arg7 (by decide)).trans (after0_arg7 (W0 m ρ c))
theorem W2_arg8 (c : Dev nD) : W2 m ρ c (Proc.devRef .tc main_arg8) = m ((c : Thread nD τ).loc main_arg8) :=
  (W2_of_ne m ρ c main_arg8 (by decide)).trans (after0_arg8 (W0 m ρ c))

/-- The edge kernel's result as the node kernel's host stretch finds it: every edge row of e_feats against the
    transposed edge weights. -/
theorem W2_v1 (c : Dev nD) : W2 m ρ c (Proc.devRef .tc main_v1)
    = edgeArr (m ((c : Thread nD τ).loc main_arg2))
        (transpose S64x128 [1, 0] (m ((c : Thread nD τ).loc main_arg3)) transposes_S128x64_S64x128_1_0) := by
  refine (W2_arr m ρ c 2).trans ?_
  rw [Cert.KernelIdeal.KVal.final0 (V1 m ρ) c]
  show edgeArr (StableHlo.after (hostOps0 (F := Ideal)) (W0 m ρ c) (Proc.devRef .tc main_arg2))
      (StableHlo.after (hostOps0 (F := Ideal)) (W0 m ρ c) (Proc.devRef .tc main_v0)) = _
  rw [after0_arg2, after0_v0]

/-- The result array at the last boundary is the kernel program's function of the nine arguments as launched. -/
theorem result_eq (c : Dev nD) : W4 m ρ c (Proc.devRef .tc main_v26)
    = Cert.KOut.kout (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W4_arr m ρ c 8).trans ?_
  rw [Cert.KernelIdeal.KVal1.final1 (V3 m ρ) c]
  show fuseArr (StableHlo.after (hostOps1 (F := Ideal)) (W2 m ρ c) (Proc.devRef .tc main_v11))
      (StableHlo.after (hostOps1 (F := Ideal)) (W2 m ρ c) (Proc.devRef .tc main_v14))
      (StableHlo.after (hostOps1 (F := Ideal)) (W2 m ρ c) (Proc.devRef .tc main_v25))
      (StableHlo.after (hostOps1 (F := Ideal)) (W2 m ρ c) (Proc.devRef .tc main_arg1))
      (StableHlo.after (hostOps1 (F := Ideal)) (W2 m ρ c) (Proc.devRef .tc main_v20))
      (StableHlo.after (hostOps1 (F := Ideal)) (W2 m ρ c) (Proc.devRef .tc main_v22))
      (StableHlo.after (hostOps1 (F := Ideal)) (W2 m ρ c) (Proc.devRef .tc main_v23))
      (StableHlo.after (hostOps1 (F := Ideal)) (W2 m ρ c) (Proc.devRef .tc main_v24)) = _
  rw [after1_v11, after1_v14, after1_v25, after1_arg1, after1_v20, after1_v22, after1_v23, after1_v24,
    W2_arg0, W2_arg1, W2_arg4, W2_arg5, W2_arg6, W2_arg7, W2_arg8, W2_v1]
  rfl

end Cert.KernelIdeal.KValue

end
-- ==== Proof.lean ====
/-
  The certificate of the graph message-passing layer: the kernel program (two pallas_calls around a gather and three
  scatter-adds on the host) against its jnp reference, over the extended reals.

  Both programs send the nine arguments to one array of node rows. A node row is l2row (relu (h · Wsᵀ + hn · Wnᵀ)) with
  hn the remapped mean of the messages into the node; an edge's message is the source row joined with the edge row
  l2row (relu (e · Weᵀ)). The kernel program aggregates the two halves of the message apart and divides by the degree
  after the remap product; the reference aggregates the joined message and divides before the product. The two agree
  because max d 1 is a positive real (the degree is a finite count), so the division is a product with a nonnegative
  real, which commutes with the finite sums and products of extended reals; nothing is assumed of the inputs for it.

  The frames of the two kernel programs are the generated ones; the reference's frame is its generated run; no
  operation was rewritten by the idealization, so there is nothing to preserve. For the value claim the kernel program's
  run is read with its result array named; each region's result array is every row of its operands through the row
  function of its kernel; the host operations between the regions are read off the boundaries' contents; and the
  resulting function of the nine arguments is the reference's composed term, node row by node row.
-/
import proofs.«176896_j35304631173416_1_alg».proof.Defs
import proofs.«176896_j35304631173416_1_alg».proof.Proof.Gen.Kernel
import proofs.«176896_j35304631173416_1_alg».proof.Proof.Gen.Kernel.Skeleton
import proofs.«176896_j35304631173416_1_alg».proof.Proof.Gen.Kernel.Launch
import proofs.«176896_j35304631173416_1_alg».proof.Proof.Gen.Kernel.Points
import proofs.«176896_j35304631173416_1_alg».proof.Proof.Gen.Kernel.Frame
import proofs.«176896_j35304631173416_1_alg».proof.Proof.Gen.KernelIdeal
import proofs.«176896_j35304631173416_1_alg».proof.Proof.Gen.KernelIdeal.Skeleton
import proofs.«176896_j35304631173416_1_alg».proof.Proof.Gen.KernelIdeal.Launch
import proofs.«176896_j35304631173416_1_alg».proof.Proof.Gen.KernelIdeal.Points
import proofs.«176896_j35304631173416_1_alg».proof.Proof.Gen.KernelIdeal.Frame
import proofs.«176896_j35304631173416_1_alg».proof.Proof.Gen.ReferenceIdeal
import proofs.«176896_j35304631173416_1_alg».proof.Proof.Gen.ReferenceIdeal.Run
import proofs.«176896_j35304631173416_1_alg».proof.Proof.Gen.ReferenceIdeal.Read
import proofs.«176896_j35304631173416_1_alg».proof.Proof.Gen.Pre_finite_inputs
import proofs.«176896_j35304631173416_1_alg».proof.Proof.KernelRun
import proofs.«176896_j35304631173416_1_alg».proof.Proof.KernelValue
import proofs.«176896_j35304631173416_1_alg».proof.Proof.KOut
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at one function of the arguments, which agree by hypothesis. -/
theorem algebraic : Cert.algebraic_KernelIdeal_ReferenceIdeal := by
  intro m ρ m' ρ' _ hagree
  refine ⟨fun c => Cert.KOut.kout
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KValue.result_eq m ρ c), (h c).2⟩)
      (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v51_eq, h0, h1, h2, h3, h4, h5, h6, h7, h8]
    exact (Cert.KOut.kout_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
